-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S64x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S64x2048 .f32 .bf16
  ∧ IdealRules.truncf_extf.Statement Cert.KernelIdeal.S2048x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x256 : Shape := ⟨3, ![64, 2048, 256]⟩
abbrev S256x256 : Shape := ⟨2, ![256, 256]⟩
abbrev S256 : Shape := ⟨1, ![256]⟩
abbrev S64x256 : Shape := ⟨2, ![64, 256]⟩
abbrev S64x2048 : Shape := ⟨2, ![64, 2048]⟩
abbrev S_ : Shape := ⟨0, ![]⟩

class Facts : Prop where
  bcast_S_S64x2048x256 : S_.BroadcastsInDim S64x2048x256 (![] : Fin 0 → Fin S64x2048x256.rank)
  reducesTo_S64x2048x256_S_d0_1_2 : S64x2048x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S64x2048x256 .f32) (main_arg1 : FVec F S256x256 .f32) (main_arg2 : FVec F S256 .f32) (main_arg3 : FVec F S64x256 .f32) (main_arg4 : IVec S64x2048 1) : IVec S_ 1 :=
  let main_v0 : FVec F S64x2048x256 .f32 := Host.absf main_arg0
  let main_cst : FVec F S_ .f32 := constant S_ .f32 0x7F800000#32
  let main_v1 : FVec F S64x2048x256 .f32 := broadcastInDim S64x2048x256 ![] bcast_S_S64x2048x256 main_cst
  let main_v2 : IVec S64x2048x256 1 := cmpf .olt main_v0 main_v1
  let main_c : IVec S_ 1 := constantI S_ 1 1#1
  let main_v3 : IVec S_ 1 := (fun x v => Host.reduce IntOp.andi x v reducesTo_S64x2048x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S64x2048x256 : Shape := ⟨3, ![64, 2048, 256]⟩
abbrev S256x256 : Shape := ⟨2, ![256, 256]⟩
abbrev S256 : Shape := ⟨1, ![256]⟩
abbrev S64x256 : Shape := ⟨2, ![64, 256]⟩
abbrev S64x2048 : Shape := ⟨2, ![64, 2048]⟩
abbrev S64x1x2048 : Shape := ⟨3, ![64, 1, 2048]⟩
abbrev S1x256 : Shape := ⟨2, ![1, 256]⟩
abbrev S64x64x256 : Shape := ⟨3, ![64, 64, 256]⟩
abbrev S64x64x2048 : Shape := ⟨3, ![64, 64, 2048]⟩
abbrev S8x2048x256 : Shape := ⟨3, ![8, 2048, 256]⟩
abbrev S8x1x2048 : Shape := ⟨3, ![8, 1, 2048]⟩
abbrev S8x64x256 : Shape := ⟨3, ![8, 64, 256]⟩
abbrev S8x64x2048 : Shape := ⟨3, ![8, 64, 2048]⟩
abbrev S1x2048x256 : Shape := ⟨3, ![1, 2048, 256]⟩
abbrev S2048x256 : Shape := ⟨2, ![2048, 256]⟩
abbrev S1x1x2048 : Shape := ⟨3, ![1, 1, 2048]⟩
abbrev S1x2048 : Shape := ⟨2, ![1, 2048]⟩
abbrev S64 : Shape := ⟨1, ![64]⟩
abbrev S64x1 : Shape := ⟨2, ![64, 1]⟩
abbrev S1x64x256 : Shape := ⟨3, ![1, 64, 256]⟩
abbrev S1x64x2048 : Shape := ⟨3, ![1, 64, 2048]⟩

abbrev nBuf : Space → Nat
  | .hbm => 10
  | .vmem => 11
  | .smem => 0
  | _ => 0

abbrev bufTy : (tb : Table) → Fin (tcTables nBuf tb) → BufTy
  | .hbm, ⟨0, _⟩ => ⟨S64x2048x256, .f32⟩
  | .hbm, ⟨1, _⟩ => ⟨S256x256, .f32⟩
  | .hbm, ⟨2, _⟩ => ⟨S256, .f32⟩
  | .hbm, ⟨3, _⟩ => ⟨S64x256, .f32⟩
  | .hbm, ⟨4, _⟩ => ⟨S64x2048, .i1⟩
  | .hbm, ⟨5, _⟩ => ⟨S64x2048, .f32⟩
  | .hbm, ⟨6, _⟩ => ⟨S64x1x2048, .f32⟩
  | .hbm, ⟨7, _⟩ => ⟨S1x256, .f32⟩
  | .hbm, ⟨8, _⟩ => ⟨S64x64x256, .f32⟩
  | .hbm, ⟨9, _⟩ => ⟨S64x64x2048, .f32⟩
  | .local _ .vmem, ⟨0, _⟩ => ⟨S8x2048x256, .f32⟩
  | .local _ .vmem, ⟨1, _⟩ => ⟨S8x2048x256, .f32⟩
  | .local _ .vmem, ⟨2, _⟩ => ⟨S8x1x2048, .f32⟩
  | .local _ .vmem, ⟨3, _⟩ => ⟨S8x1x2048, .f32⟩
  | .local _ .vmem, ⟨4, _⟩ => ⟨S256x256, .f32⟩
  | .local _ .vmem, ⟨5, _⟩ => ⟨S1x256, .f32⟩
  | .local _ .vmem, ⟨6, _⟩ => ⟨S64x256, .f32⟩
  | .local _ .vmem, ⟨7, _⟩ => ⟨S8x64x256, .f32⟩
  | .local _ .vmem, ⟨8, _⟩ => ⟨S8x64x256, .f32⟩
  | .local _ .vmem, ⟨9, _⟩ => ⟨S8x64x2048, .f32⟩
  | .local _ .vmem, ⟨10, _⟩ => ⟨S8x64x2048, .f32⟩
  | _, _ => ⟨S64x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S64x2048_S64x1x2048_0_2 : S64x2048.BroadcastsInDim S64x1x2048 (![0, 2] : Fin 2 → Fin S64x1x2048.rank)
  bcast_S256_S1x256_1 : S256.BroadcastsInDim S1x256 (![1] : Fin 1 → Fin S1x256.rank)
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S64x256_S64x256_0_0 : ∀ a, (![0, 0] : Fin 2 → Nat) a + S64x256.size a ≤ S64x256.size a
  h_S64x256 : 0 < S64x256.numel
  inb_S8x2048x256_S1x2048x256_0_0_0 : ∀ a, (![0, 0, 0] : Fin 3 → Nat) a + S1x2048x256.size a ≤ S8x2048x256.size a
  h_S1x2048x256 : 0 < S1x2048x256.numel
  shapeCasts_S1x2048x256_S2048x256 : S1x2048x256.ShapeCasts S2048x256
  inb_S8x1x2048_S1x1x2048_0_0_0 : ∀ a, (![0, 0, 0] : Fin 3 → Nat) a + S1x1x2048.size a ≤ S8x1x2048.size a
  h_S1x1x2048 : 0 < S1x1x2048.numel
  shapeCasts_S1x1x2048_S1x2048 : S1x1x2048.ShapeCasts S1x2048
  broadcasts_S1x256_S2048x256 : S1x256.Broadcasts S2048x256
  broadcasts_S1x2048_S64x2048 : S1x2048.Broadcasts S64x2048
  reduces_S64x2048_S64 : S64x2048.Reduces [1] S64
  shapeCasts_S64_S64x1 : S64.ShapeCasts S64x1
  broadcasts_S64x1_S64x2048 : S64x1.Broadcasts S64x2048
  inb_S8x64x256_S1x64x256_0_0_0 : ∀ a, (![0, 0, 0] : Fin 3 → Nat) a + S1x64x256.size a ≤ S8x64x256.size a
  h_S1x64x256 : 0 < S1x64x256.numel
  shapeCasts_S1x64x256_S64x256 : S1x64x256.ShapeCasts S64x256
  shapeCasts_S64x256_S1x64x256 : S64x256.ShapeCasts S1x64x256
  inb_S8x64x2048_S1x64x2048_0_0_0 : ∀ a, (![0, 0, 0] : Fin 3 → Nat) a + S1x64x2048.size a ≤ S8x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  inb_S8x2048x256_S1x2048x256_1_0_0 : ∀ a, (![1, 0, 0] : Fin 3 → Nat) a + S1x2048x256.size a ≤ S8x2048x256.size a
  inb_S8x1x2048_S1x1x2048_1_0_0 : ∀ a, (![1, 0, 0] : Fin 3 → Nat) a + S1x1x2048.size a ≤ S8x1x2048.size a
  inb_S8x64x256_S1x64x256_1_0_0 : ∀ a, (![1, 0, 0] : Fin 3 → Nat) a + S1x64x256.size a ≤ S8x64x256.size a
  inb_S8x64x2048_S1x64x2048_1_0_0 : ∀ a, (![1, 0, 0] : Fin 3 → Nat) a + S1x64x2048.size a ≤ S8x64x2048.size a
  inb_S8x2048x256_S1x2048x256_2_0_0 : ∀ a, (![2, 0, 0] : Fin 3 → Nat) a + S1x2048x256.size a ≤ S8x2048x256.size a
  inb_S8x1x2048_S1x1x2048_2_0_0 : ∀ a, (![2, 0, 0] : Fin 3 → Nat) a + S1x1x2048.size a ≤ S8x1x2048.size a
  inb_S8x64x256_S1x64x256_2_0_0 : ∀ a, (![2, 0, 0] : Fin 3 → Nat) a + S1x64x256.size a ≤ S8x64x256.size a
  inb_S8x64x2048_S1x64x2048_2_0_0 : ∀ a, (![2, 0, 0] : Fin 3 → Nat) a + S1x64x2048.size a ≤ S8x64x2048.size a
  inb_S8x2048x256_S1x2048x256_3_0_0 : ∀ a, (![3, 0, 0] : Fin 3 → Nat) a + S1x2048x256.size a ≤ S8x2048x256.size a
  inb_S8x1x2048_S1x1x2048_3_0_0 : ∀ a, (![3, 0, 0] : Fin 3 → Nat) a + S1x1x2048.size a ≤ S8x1x2048.size a
  inb_S8x64x256_S1x64x256_3_0_0 : ∀ a, (![3, 0, 0] : Fin 3 → Nat) a + S1x64x256.size a ≤ S8x64x256.size a
  inb_S8x64x2048_S1x64x2048_3_0_0 : ∀ a, (![3, 0, 0] : Fin 3 → Nat) a + S1x64x2048.size a ≤ S8x64x2048.size a
  inb_S8x2048x256_S1x2048x256_4_0_0 : ∀ a, (![4, 0, 0] : Fin 3 → Nat) a + S1x2048x256.size a ≤ S8x2048x256.size a
  inb_S8x1x2048_S1x1x2048_4_0_0 : ∀ a, (![4, 0, 0] : Fin 3 → Nat) a + S1x1x2048.size a ≤ S8x1x2048.size a
  inb_S8x64x256_S1x64x256_4_0_0 : ∀ a, (![4, 0, 0] : Fin 3 → Nat) a + S1x64x256.size a ≤ S8x64x256.size a
  inb_S8x64x2048_S1x64x2048_4_0_0 : ∀ a, (![4, 0, 0] : Fin 3 → Nat) a + S1x64x2048.size a ≤ S8x64x2048.size a
  inb_S8x2048x256_S1x2048x256_5_0_0 : ∀ a, (![5, 0, 0] : Fin 3 → Nat) a + S1x2048x256.size a ≤ S8x2048x256.size a
  inb_S8x1x2048_S1x1x2048_5_0_0 : ∀ a, (![5, 0, 0] : Fin 3 → Nat) a + S1x1x2048.size a ≤ S8x1x2048.size a
  inb_S8x64x256_S1x64x256_5_0_0 : ∀ a, (![5, 0, 0] : Fin 3 → Nat) a + S1x64x256.size a ≤ S8x64x256.size a
  inb_S8x64x2048_S1x64x2048_5_0_0 : ∀ a, (![5, 0, 0] : Fin 3 → Nat) a + S1x64x2048.size a ≤ S8x64x2048.size a
  inb_S8x2048x256_S1x2048x256_6_0_0 : ∀ a, (![6, 0, 0] : Fin 3 → Nat) a + S1x2048x256.size a ≤ S8x2048x256.size a
  inb_S8x1x2048_S1x1x2048_6_0_0 : ∀ a, (![6, 0, 0] : Fin 3 → Nat) a + S1x1x2048.size a ≤ S8x1x2048.size a
  inb_S8x64x256_S1x64x256_6_0_0 : ∀ a, (![6, 0, 0] : Fin 3 → Nat) a + S1x64x256.size a ≤ S8x64x256.size a
  inb_S8x64x2048_S1x64x2048_6_0_0 : ∀ a, (![6, 0, 0] : Fin 3 → Nat) a + S1x64x2048.size a ≤ S8x64x2048.size a
  inb_S8x2048x256_S1x2048x256_7_0_0 : ∀ a, (![7, 0, 0] : Fin 3 → Nat) a + S1x2048x256.size a ≤ S8x2048x256.size a
  inb_S8x1x2048_S1x1x2048_7_0_0 : ∀ a, (![7, 0, 0] : Fin 3 → Nat) a + S1x1x2048.size a ≤ S8x1x2048.size a
  inb_S8x64x256_S1x64x256_7_0_0 : ∀ a, (![7, 0, 0] : Fin 3 → Nat) a + S1x64x256.size a ≤ S8x64x256.size a
  inb_S8x64x2048_S1x64x2048_7_0_0 : ∀ a, (![7, 0, 0] : Fin 3 → Nat) a + S1x64x2048.size a ≤ S8x64x2048.size a
  dot_S2048x256_S256x256_S2048x256_1_0_0_1_n_n_wf : DotDims.WF S2048x256 S256x256 S2048x256 [1] [0] [0] [1] [] []
  dot_S64x256_S2048x256_S64x2048_1_1_0_0_n_n_wf : DotDims.WF S64x256 S2048x256 S64x2048 [1] [1] [0] [0] [] []
  dot_S64x2048_S2048x256_S64x256_1_0_0_1_n_n_wf : DotDims.WF S64x2048 S2048x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x256.size a ≤ S64x2048x256.size a
  hwx0_0 : ∀ i : grid0.Coords, EltTy.bits .f32 = 32 ∨ (Rect.block (s := S64x2048x256) S8x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x2048.size a ≤ S64x1x2048.size a
  hwx0_1 : ∀ i : grid0.Coords, EltTy.bits .f32 = 32 ∨ (Rect.block (s := S64x1x2048) S8x1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64x256.size a ≤ S64x64x256.size a
  hwx0_5 : ∀ i : grid0.Coords, EltTy.bits .f32 = 32 ∨ (Rect.block (s := S64x64x256) S8x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x64x2048.size a ≤ S64x64x2048.size a
  hwx0_6 : ∀ i : grid0.Coords, EltTy.bits .f32 = 32 ∨ (Rect.block (s := S64x64x2048) S8x64x2048.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S64x256_S2048x256_S64x2048_1_1_0_0_n_n : DotDims S64x256 S2048x256 S64x2048 where
  lhsContracting := [1]
  rhsContracting := [1]
  lhsNonContracting := [0]
  rhsNonContracting := [0]
  lhsBatch := []
  rhsBatch := []
  wf := dot_S64x256_S2048x256_S64x2048_1_1_0_0_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_arg0) S8x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S8x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S8x64x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x2048x256 : Shape := ⟨3, ![64, 2048, 256]⟩
abbrev S256x256 : Shape := ⟨2, ![256, 256]⟩
abbrev S256 : Shape := ⟨1, ![256]⟩
abbrev S64x256 : Shape := ⟨2, ![64, 256]⟩
abbrev S64x2048 : Shape := ⟨2, ![64, 2048]⟩
abbrev S1x1x256 : Shape := ⟨3, ![1, 1, 256]⟩
abbrev S64x2048x64 : Shape := ⟨3, ![64, 2048, 64]⟩
abbrev S64x2048x1 : Shape := ⟨3, ![64, 2048, 1]⟩
abbrev S_ : Shape := ⟨0, ![]⟩
abbrev S64x64 : Shape := ⟨2, ![64, 64]⟩
abbrev S64x1x64 : Shape := ⟨3, ![64, 1, 64]⟩
abbrev S64x64x256 : Shape := ⟨3, ![64, 64, 256]⟩
abbrev S64x64x2048 : Shape := ⟨3, ![64, 64, 2048]⟩

abbrev nBuf : Space → Nat
  | .hbm => 26
  | .vmem => 0
  | .smem => 0
  | _ => 0

abbrev bufTy : (tb : Table) → Fin (tcTables nBuf tb) → BufTy
  | .hbm, ⟨0, _⟩ => ⟨S64x2048x256, .f32⟩
  | .hbm, ⟨1, _⟩ => ⟨S256x256, .f32⟩
  | .hbm, ⟨2, _⟩ => ⟨S256, .f32⟩
  | .hbm, ⟨3, _⟩ => ⟨S64x256, .f32⟩
  | .hbm, ⟨4, _⟩ => ⟨S64x2048, .i1⟩
  | .hbm, ⟨5, _⟩ => ⟨S64x2048x256, .f32⟩
  | .hbm, ⟨6, _⟩ => ⟨S1x1x256, .f32⟩
  | .hbm, ⟨7, _⟩ => ⟨S64x2048x256, .f32⟩
  | .hbm, ⟨8, _⟩ => ⟨S64x2048x256, .f32⟩
  | .hbm, ⟨9, _⟩ => ⟨S64x2048x256, .f32⟩
  | .hbm, ⟨10, _⟩ => ⟨S64x2048x64, .f32⟩
  | .hbm, ⟨11, _⟩ => ⟨S64x2048x64, .f32⟩
  | .hbm, ⟨12, _⟩ => ⟨S64x2048, .f32⟩
  | .hbm, ⟨13, _⟩ => ⟨S64x2048x1, .f32⟩
  | .hbm, ⟨14, _⟩ => ⟨S64x2048x64, .f32⟩
  | .hbm, ⟨15, _⟩ => ⟨S64x2048x64, .f32⟩
  | .hbm, ⟨16, _⟩ => ⟨S_, .f32⟩
  | .hbm, ⟨17, _⟩ => ⟨S64x64, .f32⟩
  | .hbm, ⟨18, _⟩ => ⟨S64x1x64, .f32⟩
  | .hbm, ⟨19, _⟩ => ⟨S_, .f32⟩
  | .hbm, ⟨20, _⟩ => ⟨S64x1x64, .f32⟩
  | .hbm, ⟨21, _⟩ => ⟨S64x1x64, .f32⟩
  | .hbm, ⟨22, _⟩ => ⟨S64x2048x64, .f32⟩
  | .hbm, ⟨23, _⟩ => ⟨S64x2048x64, .f32⟩
  | .hbm, ⟨24, _⟩ => ⟨S64x64x256, .f32⟩
  | .hbm, ⟨25, _⟩ => ⟨S64x64x2048, .f32⟩
  | _, _ => ⟨S64x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S64x2048x256_0_1_2 : S1x1x256.BroadcastsInDim S64x2048x256 (![0, 1, 2] : Fin 3 → Fin S64x2048x256.rank)
  bcast_S64x2048_S64x2048x1_0_1 : S64x2048.BroadcastsInDim S64x2048x1 (![0, 1] : Fin 2 → Fin S64x2048x1.rank)
  bcast_S64x2048x1_S64x2048x64_0_1_2 : S64x2048x1.BroadcastsInDim S64x2048x64 (![0, 1, 2] : Fin 3 → Fin S64x2048x64.rank)
  reducesTo_S64x2048x64_S64x64_d1 : S64x2048x64.ReducesTo [1] S64x64
  h_S_ : 0 < S_.numel
  bcast_S64x64_S64x1x64_0_2 : S64x64.BroadcastsInDim S64x1x64 (![0, 2] : Fin 2 → Fin S64x1x64.rank)
  bcast_S_S64x1x64 : S_.BroadcastsInDim S64x1x64 (![] : Fin 0 → Fin S64x1x64.rank)
  bcast_S64x1x64_S64x2048x64_0_1_2 : S64x1x64.BroadcastsInDim S64x2048x64 (![0, 1, 2] : Fin 3 → Fin S64x2048x64.rank)
  transposes_S64x2048x64_S64x64x2048_0_2_1 : S64x2048x64.Transposes [0, 2, 1] S64x64x2048
  dot_S64x2048x256_S256x256_S64x2048x256_2_0_01_1_n_n_wf : DotDims.WF S64x2048x256 S256x256 S64x2048x256 [2] [0] [0, 1] [1] [] []
  dot_S64x2048x256_S64x256_S64x2048x64_2_1_01_0_n_n_wf : DotDims.WF S64x2048x256 S64x256 S64x2048x64 [2] [1] [0, 1] [0] [] []
  dot_S64x2048x64_S64x2048x256_S64x64x256_1_1_2_2_0_0_wf : DotDims.WF S64x2048x64 S64x2048x256 S64x64x256 [1] [1] [2] [2] [0] [0]

variable [Facts₀]

def dot_S64x2048x256_S256x256_S64x2048x256_2_0_01_1_n_n : DotDims S64x2048x256 S256x256 S64x2048x256 where
  lhsContracting := [2]
  rhsContracting := [0]
  lhsNonContracting := [0, 1]
  rhsNonContracting := [1]
  lhsBatch := []
  rhsBatch := []
  wf := dot_S64x2048x256_S256x256_S64x2048x256_2_0_01_1_n_n_wf
def dot_S64x2048x256_S64x256_S64x2048x64_2_1_01_0_n_n : DotDims S64x2048x256 S64x256 S64x2048x64 where
  lhsContracting := [2]
  rhsContracting := [1]
  lhsNonContracting := [0, 1]
  rhsNonContracting := [0]
  lhsBatch := []
  rhsBatch := []
  wf := dot_S64x2048x256_S64x256_S64x2048x64_2_1_01_0_n_n_wf
def dot_S64x2048x64_S64x2048x256_S64x64x256_1_1_2_2_0_0 : DotDims S64x2048x64 S64x2048x256 S64x64x256 where
  lhsContracting := [1]
  rhsContracting := [1]
  lhsNonContracting := [2]
  rhsNonContracting := [2]
  lhsBatch := [0]
  rhsBatch := [0]
  wf := dot_S64x2048x64_S64x2048x256_S64x64x256_1_1_2_2_0_0_wf

class Facts : Prop extends Facts₀ where

variable [Facts]
-- ==== Proof.Spec.lean ====
/-
  The mathematics of the certificate, with no program in sight: attention pooling of one batch row over the
  extended reals, and the one law that joins the kernel's arrangement of it to the reference's.

  For a row `x : 2048 × 256`, weights `W : 256 × 256`, bias `B`, class vectors `U : 64 × 256`, a mask `mk` over the
  2048 positions and a regulariser `eps`:
    hid t g   = tanh (Σ_f x t f · W f g + B g)
    logit t c = Σ_f hid t f · U c f
    wgt t c   = exp (logit t c) · mk t
    den c     = Σ_t wgt t c
    attn t c  = wgt t c / (den c + eps)
    outv c f  = Σ_t attn t c · x t f.
  The kernel evaluates each of its two precision-sensitive contractions in three passes, `p·q + p·(q − q') + (p − p')·q`
  with `p'`, `q'` the operands rounded to a shorter format; over the extended reals a change of format is the identity, so
  the correction terms are `q − q` and `p − p`, which vanish exactly when the operand is a real number (`⊤ − ⊤ = ⊥`).
  Hence the law below (`three_pass`) asks for real operands, and the rest of the module shows that every operand the
  kernel corrects is real: `tanh` is real everywhere, and the normalised weight is a real because `exp` of a real is a
  positive real, the mask a nonnegative real and `eps` a positive real, so the denominator is a positive real.
-/
import Idealize.ShloMosaic.PureOps.Ideal
import Idealize.ShloMosaic.Lib.ValueIdx

noncomputable section

namespace Cert.AttnSpec

open Idealize.ShloMosaic Idealize.ShloMosaic.ValueIdx

/-! ## Real elements of the extended reals -/

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The difference of a real with itself is zero: the law that fails at the infinities. -/
theorem IsReal.sub_self {x : EReal} (hx : IsReal x) : x - x = 0 := by
  obtain ⟨a, rfl⟩ := hx
  rw [← EReal.coe_sub, _root_.sub_self, EReal.coe_zero]

theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- `tanh` over the extended reals is a real at every argument, the infinities included (its limits `±1`). -/
theorem isReal_tanh (x : EReal) : IsReal (Ideal.tanh x) := by
  induction x using EReal.rec with
  | bot => exact ⟨-1, by rw [Ideal.tanh_bot]; norm_num⟩
  | coe r => exact ⟨Real.tanh r, rfl⟩
  | top => exact ⟨1, by rw [Ideal.tanh_top]; norm_num⟩

/-- `exp` of a real is a positive real. -/
theorem exp_real {x : EReal} (hx : IsReal x) : ∃ r : ℝ, 0 < r ∧ Ideal.exp x = (r : EReal) := by
  obtain ⟨a, rfl⟩ := hx; exact ⟨Real.exp a, Real.exp_pos a, rfl⟩

/-- A real over a nonzero real is a real. -/
theorem isReal_div {x : EReal} (hx : IsReal x) {d : ℝ} (hd : d ≠ 0) : IsReal (Ideal.div x (d : EReal)) := by
  rw [Ideal.div_coe hd]; exact hx.mul (IsReal.coe _)

/-! ## The law: three passes over real operands are one -/

/-- `Σ p·q + Σ p·(q − q) + Σ (p − p)·q = Σ p·q` when every `p i` and `q i` is a real: both corrections are sums of zeros. -/
theorem three_pass {ι : Type*} [Fintype ι] (p q : ι → EReal) (hp : ∀ i, IsReal (p i)) (hq : ∀ i, IsReal (q i)) :
    (∑ i, p i * q i + ∑ i, p i * (q i - q i)) + ∑ i, (p i - p i) * q i = ∑ i, p i * q i := by
  have h1 : ∑ i, p i * (q i - q i) = 0 :=
    Finset.sum_eq_zero fun i _ => by rw [(hq i).sub_self, mul_zero]
  have h2 : ∑ i, (p i - p i) * q i = 0 :=
    Finset.sum_eq_zero fun i _ => by rw [(hp i).sub_self, zero_mul]
  rw [h1, h2, add_zero, add_zero]

/-! ## One batch row -/

section Row

variable (x : Fin 2048 → Fin 256 → EReal) (W : Fin 256 → Fin 256 → EReal) (B : Fin 256 → EReal)
  (U : Fin 64 → Fin 256 → EReal) (mk : Fin 2048 → EReal) (eps : EReal)

/-- The hidden layer: `tanh (x W + B)`. -/
def hid (t : Fin 2048) (g : Fin 256) : EReal := Ideal.tanh ((∑ f : Fin 256, x t f * W f g) + B g)

/-- The logit of position `t` for class `c`. -/
def logit (t : Fin 2048) (c : Fin 64) : EReal := ∑ f : Fin 256, hid x W B t f * U c f

/-- The masked, unnormalised weight. -/
def wgt (t : Fin 2048) (c : Fin 64) : EReal := Ideal.exp (logit x W B U t c) * mk t

/-- Its sum over the positions. -/
def den (c : Fin 64) : EReal := ∑ t : Fin 2048, wgt x W B U mk t c

/-- The attention weight: normalised over the positions, with the regulariser in the denominator. -/
def attn (t : Fin 2048) (c : Fin 64) : EReal := Ideal.div (wgt x W B U mk t c) (den x W B U mk c + eps)

/-- The pooled output. -/
def outv (c : Fin 64) (f : Fin 256) : EReal := ∑ t : Fin 2048, attn x W B U mk eps t c * x t f

theorem isReal_hid (t : Fin 2048) (g : Fin 256) : IsReal (hid x W B t g) := isReal_tanh _

variable {U} in
theorem isReal_logit (hU : ∀ c f, IsReal (U c f)) (t : Fin 2048) (c : Fin 64) : IsReal (logit x W B U t c) :=
  IsReal.sum _ _ fun f _ => (isReal_hid x W B t f).mul (hU c f)

variable {U mk} in
/-- A weight is a nonnegative real when the class vectors are real and the mask a nonnegative real. -/
theorem wgt_real (hU : ∀ c f, IsReal (U c f)) (hmk : ∀ t, ∃ r : ℝ, 0 ≤ r ∧ mk t = (r : EReal)) (t : Fin 2048) (c : Fin 64) :
    ∃ r : ℝ, 0 ≤ r ∧ wgt x W B U mk t c = (r : EReal) := by
  obtain ⟨e, he, hee⟩ := exp_real (isReal_logit x W B hU t c)
  obtain ⟨r, hr, hrr⟩ := hmk t
  refine ⟨e * r, mul_nonneg he.le hr, ?_⟩
  unfold wgt
  rw [hee, hrr, EReal.coe_mul]

variable {U mk} in
/-- So is their sum over the positions. -/
theorem den_real (hU : ∀ c f, IsReal (U c f)) (hmk : ∀ t, ∃ r : ℝ, 0 ≤ r ∧ mk t = (r : EReal)) (c : Fin 64) :
    ∃ r : ℝ, 0 ≤ r ∧ den x W B U mk c = (r : EReal) := by
  choose w hw hww using fun t => wgt_real x W B hU hmk t c
  refine ⟨∑ t, w t, Finset.sum_nonneg fun t _ => hw t, ?_⟩
  unfold den
  simp_rw [hww]
  classical
  have : ∀ s : Finset (Fin 2048), ∑ t ∈ s, ((w t : ℝ) : EReal) = ((∑ t ∈ s, w t : ℝ) : EReal) := by
    intro s
    induction s using Finset.induction_on with
    | empty => simp
    | insert a s ha ih => rw [Finset.sum_insert ha, Finset.sum_insert ha, ih, EReal.coe_add]
  exact this _

variable {U mk eps} in
/-- The attention weight is a real: the denominator is a positive real. -/
theorem isReal_attn (hU : ∀ c f, IsReal (U c f)) (hmk : ∀ t, ∃ r : ℝ, 0 ≤ r ∧ mk t = (r : EReal))
    (heps : ∃ e : ℝ, 0 < e ∧ eps = (e : EReal)) (t : Fin 2048) (c : Fin 64) : IsReal (attn x W B U mk eps t c) := by
  obtain ⟨d, hd, hdd⟩ := den_real x W B hU hmk c
  obtain ⟨e, he, hee⟩ := heps
  obtain ⟨w, _, hww⟩ := wgt_real x W B hU hmk t c
  unfold attn
  rw [hdd, hee, ← EReal.coe_add, hww]
  exact isReal_div (IsReal.coe w) (by positivity)

variable {U} in
/-- The kernel's three-pass logit is the logit (the factors in the kernel's order: class vector first). -/
theorem logit_three_pass (hU : ∀ c f, IsReal (U c f)) (t : Fin 2048) (c : Fin 64) :
    (∑ f : Fin 256, U c f * hid x W B t f + ∑ f : Fin 256, U c f * (hid x W B t f - hid x W B t f))
      + ∑ f : Fin 256, (U c f - U c f) * hid x W B t f = logit x W B U t c := by
  rw [three_pass (fun f => U c f) (fun f => hid x W B t f) (hU c) (isReal_hid x W B t)]
  exact Finset.sum_congr rfl fun f _ => mul_comm _ _

variable {x U mk eps} in
/-- The kernel's three-pass pooled output is the pooled output. -/
theorem outv_three_pass (hx : ∀ t f, IsReal (x t f)) (hU : ∀ c f, IsReal (U c f))
    (hmk : ∀ t, ∃ r : ℝ, 0 ≤ r ∧ mk t = (r : EReal)) (heps : ∃ e : ℝ, 0 < e ∧ eps = (e : EReal)) (c : Fin 64) (f : Fin 256) :
    (∑ t : Fin 2048, attn x W B U mk eps t c * x t f + ∑ t : Fin 2048, attn x W B U mk eps t c * (x t f - x t f))
      + ∑ t : Fin 2048, (attn x W B U mk eps t c - attn x W B U mk eps t c) * x t f = outv x W B U mk eps c f :=
  three_pass (fun t => attn x W B U mk eps t c) (fun t => x t f) (fun t => isReal_attn x W B hU hmk heps t c) (fun t => hx t f)

end Row

/-! ## The regulariser -/

/-- The pattern both programs spell for `1e-7`. -/
abbrev epsv : EReal := Ideal.ofBits .f32 0x33D6BF95#32

/-- It denotes a positive real (a normal binary32 number with the sign bit clear). -/
theorem epsv_pos : ∃ e : ℝ, 0 < e ∧ epsv = (e : EReal) := by
  refine ⟨(2 ^ 23 + 5685141 : ℕ) * (2 : ℝ) ^ ((103 : ℤ) - 127 - 23), by positivity, ?_⟩
  simp [epsv, Ideal.ofBits, Ideal.ieee, -EReal.coe_mul]

/-- The mask as the programs read it: a bit, as the real `0` or `1`. -/
theorem mask_real (b : BitVec 1) : ∃ r : ℝ, 0 ≤ r ∧ ((b.toNat : ℝ) : EReal) = (r : EReal) :=
  ⟨(b.toNat : ℝ), Nat.cast_nonneg _, rfl⟩

/-! ## The two result arrays -/

section Arrays

variable (X : (⟨3, ![64, 2048, 256]⟩ : Shape).Idx → EReal) (W : (⟨2, ![256, 256]⟩ : Shape).Idx → EReal)
  (B : (⟨1, ![256]⟩ : Shape).Idx → EReal) (U : (⟨2, ![64, 256]⟩ : Shape).Idx → EReal)
  (Mk : (⟨2, ![64, 2048]⟩ : Shape).Idx → BitVec 1)

/-- Row `b` of the input. -/
abbrev rowX (b : Fin 64) : Fin 2048 → Fin 256 → EReal := fun t f => X (ix3 b t f)
abbrev matW : Fin 256 → Fin 256 → EReal := fun f g => W (ix2 f g)
abbrev vecB : Fin 256 → EReal := fun g => B (ix1 g)
abbrev matU : Fin 64 → Fin 256 → EReal := fun c f => U (ix2 c f)
/-- Row `b` of the mask, each bit read as the real `0` or `1`. -/
abbrev rowM (b : Fin 64) : Fin 2048 → EReal := fun t => (((Mk (ix2 b t)).toNat : ℝ) : EReal)

/-- The pooled output, batch × class × feature. -/
def outArr : (⟨3, ![64, 64, 256]⟩ : Shape).Idx → EReal := fun i =>
  outv (rowX X (i 0)) (matW W) (vecB B) (matU U) (rowM Mk (i 0)) epsv (i 1) (i 2)

/-- The attention scores, batch × class × position. -/
def attnArr : (⟨3, ![64, 64, 2048]⟩ : Shape).Idx → EReal := fun i =>
  attn (rowX X (i 0)) (matW W) (vecB B) (matU U) (rowM Mk (i 0)) epsv (i 2) (i 1)

end Arrays

end Cert.AttnSpec

end
-- ==== Proof.Finite.lean ====
/-
  From the precondition to real-valued inputs.

  The precondition states, for each of the four arrays of numbers, that `|a| < +∞` holds at every entry, and joins the
  four statements by `and`. Over the extended reals the absolute value is `max a (-a)` and the comparison is the strict
  order, so `|a| < ⊤` fails exactly at `a = ⊤` and `a = ⊥` (where `max a (-a) = ⊤`) and holds at every real: an entry
  that passes the test is a real number. This module reads that off for the first array (`x`) and the fourth (`u`).
-/
import proofs.«426240_j58334245814317_3_alg».proof.Pre_finite_inputs
import proofs.«426240_j58334245814317_3_alg».proof.Proof.Spec
import Idealize.ShloMosaic.Lib.ReduceAll
import Idealize.ShloMosaic.PureOps.Ideal

noncomputable section

namespace Cert.Finite

open Idealize.ShloMosaic Cert.AttnSpec

/-! ## One entry -/

/-- The pattern `0x7F800000` (sign 0, exponent all ones, significand 0) denotes `+∞`. -/
theorem inf_bits : (FloatOps.ofBits (F := Ideal) .f32 0x7F800000#32 : Ideal .f32) = (⊤ : EReal) := by
  show Ideal.ofBits .f32 0x7F800000#32 = ⊤
  simp [Ideal.ofBits, Ideal.ieee]

/-- An extended real whose absolute value `max a (-a)` lies strictly below `⊤` is a real number: at `⊤` the maximum is
    `⊤` itself, and at `⊥` it is `-⊥ = ⊤`. -/
theorem isReal_of_abs_lt_top (a : EReal) (h : max a (-a) < ⊤) : IsReal a := by
  induction a using EReal.rec with
  | bot => simp at h
  | coe r => exact ⟨r, rfl⟩
  | top => simp at h

/-- The elementwise test `|a| < +∞` answering 1 says `a` is a real number. -/
theorem isReal_of_cmp (a : Ideal .f32)
    (h : FloatOps.cmpf (F := Ideal) .olt (FloatOps.hostAbsf a) (FloatOps.ofBits (F := Ideal) .f32 0x7F800000#32) = 1#1) :
    IsReal a := by
  rw [inf_bits] at h
  have h' : Ideal.cmp .olt (max a (-a)) ⊤ = 1#1 := h
  unfold Ideal.cmp at h'
  apply isReal_of_abs_lt_top
  by_contra hn
  simp [hn] at h'

/-! ## One array -/

/-- The shape of rank 0 has exactly one index. -/
instance subsingleton_S_Idx : Subsingleton Cert.Pre_finite_inputs.S_.Idx := ⟨fun a b => funext fun d => d.elim0⟩

/-- For an array `a` of any shape: if the conjunction over all axes of the elementwise test `|a| < +∞` is 1, every entry
    of `a` is a real number. A conjunction that is 1 had a 1 at every operand index, and a 1 there is `isReal_of_cmp`. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (a : FVec Ideal s .f32) (init : IVec Cert.Pre_finite_inputs.S_ 1)
    (e : Host.reduce IntOp.andi
          (cmpf .olt (Host.absf a) (broadcastInDim s ![] hb (constant (F := Ideal) Cert.Pre_finite_inputs.S_ .f32 0x7F800000#32)))
          init hr hu ValueIdx.ix0 = 1#1) :
    ∀ i, IsReal (a i) := fun i =>
  isReal_of_cmp (a i) (Host.reduce_andi_all _ init hr hu ValueIdx.ix0 e i)

/-! ## The precondition -/

/-- The precondition holding (its value the bit 1) makes every entry of `x` and every entry of `u` a real number. Its
    value is `((all x ∧ all w) ∧ all b) ∧ all u`; an `and` of bits that is 1 has both sides 1, which isolates the
    conjuncts for `x` and for `u`, and each is `real_of_all`. -/
theorem real_of_fn [Cert.Pre_finite_inputs.Facts]
    (x : FVec Ideal Cert.Pre_finite_inputs.S64x2048x256 .f32) (w : FVec Ideal Cert.Pre_finite_inputs.S256x256 .f32)
    (b : FVec Ideal Cert.Pre_finite_inputs.S256 .f32) (u : FVec Ideal Cert.Pre_finite_inputs.S64x256 .f32)
    (mask : IVec Cert.Pre_finite_inputs.S64x2048 1)
    (h : Cert.Pre_finite_inputs.fn (F := Ideal) x w b u mask = fun _ => 1#1) :
    (∀ i, Cert.AttnSpec.IsReal (x i)) ∧ (∀ i, Cert.AttnSpec.IsReal (u i)) := by
  have h0 := congrFun h ValueIdx.ix0
  dsimp only [Cert.Pre_finite_inputs.fn, Cert.Pre_finite_inputs.fn_part1] at h0
  obtain ⟨h123, h4⟩ := IntOp.andi_eq_one.1 h0
  obtain ⟨h12, _⟩ := IntOp.andi_eq_one.1 h123
  obtain ⟨h1, _⟩ := IntOp.andi_eq_one.1 h12
  exact ⟨real_of_all _ _ _ x _ h1, real_of_all _ _ _ u _ h4⟩

end Cert.Finite

end
-- ==== Proof.RefValue.lean ====
/-
  The reference program computes the specification: reading each of its operations at an index, the two results are
  the pooled output and the attention scores of `Cert.AttnSpec`, batch row by batch row.
-/
import proofs.«426240_j58334245814317_3_alg».proof.Proof.Gen.ReferenceIdeal.Read
import proofs.«426240_j58334245814317_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.AttnSpec

variable (x0 : (⟨S64x2048x256, .f32⟩ : BufTy).Contents (Elt Ideal)) (x1 : (⟨S256x256, .f32⟩ : BufTy).Contents (Elt Ideal))
  (x2 : (⟨S256, .f32⟩ : BufTy).Contents (Elt Ideal)) (x3 : (⟨S64x256, .f32⟩ : BufTy).Contents (Elt Ideal))
  (x4 : (⟨S64x2048, .i1⟩ : BufTy).Contents (Elt Ideal))

/-- The hidden layer of the reference at batch row `b`, position `t`, feature `g`. -/
theorem hid_at (b : Fin 64) (t : Fin 2048) (g : Fin 256) :
    val_main_v4 (F := Ideal) x0 x1 x2 (ix3 b t g) = hid (rowX x0 b) (matW x1) (vecB x2) t g := by
  have e0 : ∀ k : Fin 256, lidx_main_v0 (ix3 b t g) k = ix3 b t k := fun k =>
    funext fun a => Fin.ext (by match a with | ⟨0, _⟩ => rfl | ⟨1, _⟩ => rfl | ⟨2, _⟩ => rfl)
  have e1 : ∀ k : Fin 256, ridx_main_v0 (ix3 b t g) k = ix2 k g := fun k =>
    funext fun a => Fin.ext (by match a with | ⟨0, _⟩ => rfl | ⟨1, _⟩ => rfl)
  have e2 : idx_main_v1 (idx_main_v2 (ix3 b t g)) = ix1 g :=
    funext fun a => Fin.ext (by match a with | ⟨0, _⟩ => rfl)
  rw [val_main_v4_apply, val_main_v3_apply, val_main_v0_apply, val_main_v2_apply, val_main_v1_apply]
  simp only [e0, e1, e2, Ideal.hostUnary_tanh_def, Ideal.addf_def]
  rfl

/-- The logit of the reference at batch row `b`, position `t`, class `c`. -/
theorem logit_at (b : Fin 64) (t : Fin 2048) (c : Fin 64) :
    val_main_v5 (F := Ideal) x0 x1 x2 x3 (ix3 b t c) = logit (rowX x0 b) (matW x1) (vecB x2) (matU x3) t c := by
  have e0 : ∀ k : Fin 256, lidx_main_v5 (ix3 b t c) k = ix3 b t k := fun k =>
    funext fun a => Fin.ext (by match a with | ⟨0, _⟩ => rfl | ⟨1, _⟩ => rfl | ⟨2, _⟩ => rfl)
  have e1 : ∀ k : Fin 256, ridx_main_v5 (ix3 b t c) k = ix2 c k := fun k =>
    funext fun a => Fin.ext (by match a with | ⟨0, _⟩ => rfl | ⟨1, _⟩ => rfl)
  rw [val_main_v5_apply]
  simp only [e0, e1, hid_at]
  rfl

/-- The masked weight of the reference: the exponential of the logit times the mask bit read as a real. -/
theorem wgt_at (b : Fin 64) (t : Fin 2048) (c : Fin 64) :
    val_main_v10 (F := Ideal) x0 x1 x2 x3 x4 (ix3 b t c)
      = wgt (rowX x0 b) (matW x1) (vecB x2) (matU x3) (rowM x4 b) t c := by
  have e0 : idx_main_v8 (idx_main_v9 (ix3 b t c)) = ix2 b t :=
    funext fun a => Fin.ext (by match a with | ⟨0, _⟩ => rfl | ⟨1, _⟩ => rfl)
  rw [val_main_v10_apply, val_main_v6_apply, val_main_v9_apply, val_main_v8_apply, val_main_v7_apply, e0, logit_at]
  simp only [Ideal.mulf_def, Ideal.hostUnary_exp_def]
  rfl

/-- The sum of the weights over the positions: the initial value of the reference's sum is the zero word. -/
theorem den_at (b : Fin 64) (c : Fin 64) :
    val_main_v11 (F := Ideal) x0 x1 x2 x3 x4 (ix2 b c)
      = den (rowX x0 b) (matW x1) (vecB x2) (matU x3) (rowM x4 b) c := by
  have e0 : ∀ k : Fin 2048, idx_main_v11 (ix2 b c) k = ix3 b k c := fun k =>
    funext fun a => Fin.ext (by match a with | ⟨0, _⟩ => rfl | ⟨1, _⟩ => rfl | ⟨2, _⟩ => rfl)
  rw [val_main_v11_apply, val_main_cst_apply]
  simp only [e0, wgt_at, Ideal.ofBits_def, Ideal.ofBits_zero_f32, zero_add]
  rfl

/-- The attention weight of the reference: the weight over the regularised sum. -/
theorem attn_at (b : Fin 64) (t : Fin 2048) (c : Fin 64) :
    val_main_v16 (F := Ideal) x0 x1 x2 x3 x4 (ix3 b t c)
      = attn (rowX x0 b) (matW x1) (vecB x2) (matU x3) (rowM x4 b) epsv t c := by
  have e0 : idx_main_v12 (idx_main_v15 (ix3 b t c)) = ix2 b c :=
    funext fun a => Fin.ext (by match a with | ⟨0, _⟩ => rfl | ⟨1, _⟩ => rfl)
  rw [val_main_v16_apply, val_main_v15_apply, val_main_v14_apply, val_main_v12_apply, val_main_v13_apply,
    val_main_cst_0_apply, e0, wgt_at, den_at]
  simp only [Ideal.hostDivf_def, Ideal.addf_def, Ideal.ofBits_def]
  rfl

/-- The first result of the reference is the pooled output. -/
theorem out_eq (x0 : (⟨S64x2048x256, .f32⟩ : BufTy).Contents (Elt Ideal)) (x1 : (⟨S256x256, .f32⟩ : BufTy).Contents (Elt Ideal))
    (x2 : (⟨S256, .f32⟩ : BufTy).Contents (Elt Ideal)) (x3 : (⟨S64x256, .f32⟩ : BufTy).Contents (Elt Ideal))
    (x4 : (⟨S64x2048, .i1⟩ : BufTy).Contents (Elt Ideal)) :
    val_main_v17 (F := Ideal) x0 x1 x2 x3 x4 = Cert.AttnSpec.outArr x0 x1 x2 x3 x4 := by
  funext i
  obtain ⟨b, c, f, rfl⟩ : ∃ (b : Fin 64) (c : Fin 64) (f : Fin 256), i = ix3 b c f := ⟨i 0, i 1, i 2, eq_ix3 i⟩
  have e0 : ∀ k : Fin 2048, lidx_main_v17 (ix3 b c f) k = ix3 b k c := fun k =>
    funext fun a => Fin.ext (by match a with | ⟨0, _⟩ => rfl | ⟨1, _⟩ => rfl | ⟨2, _⟩ => rfl)
  have e1 : ∀ k : Fin 2048, ridx_main_v17 (ix3 b c f) k = ix3 b k f := fun k =>
    funext fun a => Fin.ext (by match a with | ⟨0, _⟩ => rfl | ⟨1, _⟩ => rfl | ⟨2, _⟩ => rfl)
  rw [val_main_v17_apply]
  simp only [e0, e1, attn_at]
  rfl

/-- The second result of the reference is the attention scores, class before position. -/
theorem attn_eq (x0 : (⟨S64x2048x256, .f32⟩ : BufTy).Contents (Elt Ideal)) (x1 : (⟨S256x256, .f32⟩ : BufTy).Contents (Elt Ideal))
    (x2 : (⟨S256, .f32⟩ : BufTy).Contents (Elt Ideal)) (x3 : (⟨S64x256, .f32⟩ : BufTy).Contents (Elt Ideal))
    (x4 : (⟨S64x2048, .i1⟩ : BufTy).Contents (Elt Ideal)) :
    val_main_v18 (F := Ideal) x0 x1 x2 x3 x4 = Cert.AttnSpec.attnArr x0 x1 x2 x3 x4 := by
  funext i
  obtain ⟨b, c, t, rfl⟩ : ∃ (b : Fin 64) (c : Fin 64) (t : Fin 2048), i = ix3 b c t := ⟨i 0, i 1, i 2, eq_ix3 i⟩
  have e0 : idx_main_v18 (ix3 b c t) = ix3 b t c :=
    funext fun a => Fin.ext (by match a with | ⟨0, _⟩ => rfl | ⟨1, _⟩ => rfl | ⟨2, _⟩ => rfl)
  rw [val_main_v18_apply, e0, attn_at]
  rfl

end Cert.ReferenceIdeal.RefValue

end
-- ==== Proof.Rows.lean ====
/-
  One batch row of the kernel, as a function of what the body loads.

  The body handles the eight batch rows of a block one after the other, each by the same arithmetic on its own slice of
  the input block and of the mask block, with the weights, the bias and the class vectors loaded once. The eight rows'
  stored values are spelt as eight different compositions of named sub-terms, but they are one function of (weights,
  bias, class vectors, row slice, mask slice). This module names that function (`attnRow` for the attention scores,
  `outRow` for the pooled output) by the first row's composition, and shows that each output buffer after the body is
  the eight stores of that one function at the eight slices: every row's composition unfolds to the same operations.
-/
import proofs.«426240_j58334245814317_3_alg».proof.Proof.Gen.KernelIdeal.Frame

noncomputable section

namespace Cert.KernelIdeal.Rows

open Cert.KernelIdeal Cert.KernelIdeal.Gen Idealize.ShloMosaic Idealize.ShloMosaic.TcCoe Idealize.SL.Sem

variable {F : FTy → Type} [FloatOps F]

/-- The attention scores of one row, class × position, under a leading unit axis: what the body stores to the scores
    buffer for that row. -/
def attnRow (w : Vec F S256x256 .f32) (b : Vec F S1x256 .f32) (u : Vec F S64x256 .f32) (xb : Vec F S1x2048x256 .f32)
    (mb : Vec F S1x1x2048 .f32) : FVec F S1x64x2048 .f32 :=
  k0_pay14 (k0_pay9 w b u xb mb)

/-- The pooled output of one row, class × feature, under a leading unit axis: what the body stores to the output
    buffer for that row. -/
def outRow (w : Vec F S256x256 .f32) (b : Vec F S1x256 .f32) (u : Vec F S64x256 .f32) (xb : Vec F S1x2048x256 .f32)
    (mb : Vec F S1x1x2048 .f32) : FVec F S1x64x256 .f32 :=
  k0_pay13 (k0_pay7 xb) (k0_pay8 xb) (k0_pay10 w b u xb mb) (k0_pay11 w b u xb mb) (k0_pay12 xb)

/-- The output buffer after the body: eight stores, row `n`'s the pooled output of slice `n` of the input and mask blocks. -/
theorem out0_5_rows (x0 : Vec F S8x2048x256 .f32) (x1 : Vec F S8x1x2048 .f32) (x2 : Vec F S256x256 .f32) (x3 : Vec F S1x256 .f32)
    (x4 : Vec F S64x256 .f32) :
    out0_5 x0 x1 x2 x3 x4 = View.canon
      [⟨r0_33, outRow (View.ld x2 r0_0) (View.ld x3 r0_1) (View.ld x4 r0_2) (View.ld x0 r0_31) (View.ld x1 r0_32)⟩,
       ⟨r0_29, outRow (View.ld x2 r0_0) (View.ld x3 r0_1) (View.ld x4 r0_2) (View.ld x0 r0_27) (View.ld x1 r0_28)⟩,
       ⟨r0_25, outRow (View.ld x2 r0_0) (View.ld x3 r0_1) (View.ld x4 r0_2) (View.ld x0 r0_23) (View.ld x1 r0_24)⟩,
       ⟨r0_21, outRow (View.ld x2 r0_0) (View.ld x3 r0_1) (View.ld x4 r0_2) (View.ld x0 r0_19) (View.ld x1 r0_20)⟩,
       ⟨r0_17, outRow (View.ld x2 r0_0) (View.ld x3 r0_1) (View.ld x4 r0_2) (View.ld x0 r0_15) (View.ld x1 r0_16)⟩,
       ⟨r0_13, outRow (View.ld x2 r0_0) (View.ld x3 r0_1) (View.ld x4 r0_2) (View.ld x0 r0_11) (View.ld x1 r0_12)⟩,
       ⟨r0_9, outRow (View.ld x2 r0_0) (View.ld x3 r0_1) (View.ld x4 r0_2) (View.ld x0 r0_7) (View.ld x1 r0_8)⟩,
       ⟨r0_5, outRow (View.ld x2 r0_0) (View.ld x3 r0_1) (View.ld x4 r0_2) (View.ld x0 r0_3) (View.ld x1 r0_4)⟩] := rfl

/-- The scores buffer after the body: eight stores, row `n`'s the attention scores of slice `n`. -/
theorem out0_6_rows (x0 : Vec F S8x2048x256 .f32) (x1 : Vec F S8x1x2048 .f32) (x2 : Vec F S256x256 .f32) (x3 : Vec F S1x256 .f32)
    (x4 : Vec F S64x256 .f32) :
    out0_6 x0 x1 x2 x3 x4 = View.canon
      [⟨r0_34, attnRow (View.ld x2 r0_0) (View.ld x3 r0_1) (View.ld x4 r0_2) (View.ld x0 r0_31) (View.ld x1 r0_32)⟩,
       ⟨r0_30, attnRow (View.ld x2 r0_0) (View.ld x3 r0_1) (View.ld x4 r0_2) (View.ld x0 r0_27) (View.ld x1 r0_28)⟩,
       ⟨r0_26, attnRow (View.ld x2 r0_0) (View.ld x3 r0_1) (View.ld x4 r0_2) (View.ld x0 r0_23) (View.ld x1 r0_24)⟩,
       ⟨r0_22, attnRow (View.ld x2 r0_0) (View.ld x3 r0_1) (View.ld x4 r0_2) (View.ld x0 r0_19) (View.ld x1 r0_20)⟩,
       ⟨r0_18, attnRow (View.ld x2 r0_0) (View.ld x3 r0_1) (View.ld x4 r0_2) (View.ld x0 r0_15) (View.ld x1 r0_16)⟩,
       ⟨r0_14, attnRow (View.ld x2 r0_0) (View.ld x3 r0_1) (View.ld x4 r0_2) (View.ld x0 r0_11) (View.ld x1 r0_12)⟩,
       ⟨r0_10, attnRow (View.ld x2 r0_0) (View.ld x3 r0_1) (View.ld x4 r0_2) (View.ld x0 r0_7) (View.ld x1 r0_8)⟩,
       ⟨r0_6, attnRow (View.ld x2 r0_0) (View.ld x3 r0_1) (View.ld x4 r0_2) (View.ld x0 r0_3) (View.ld x1 r0_4)⟩] := rfl

end Cert.KernelIdeal.Rows

end
-- ==== Proof.RowOps.lean ====
/-
  The kernel's vector operations read at an index, over the extended reals.

  A matrix product into a zero accumulator is the plain sum of products over the contracted axis; here are the three
  the body uses, each at an output entry with both operand entries written by coordinates: (rows × features)·(features ×
  features), (classes × features)·(positions × features)ᵀ, and (classes × positions)·(positions × features). A sum over the
  lanes of a classes × positions array is the sum over the positions. A vector made a column, and a column spread over
  the positions, read the vector's entry of the same row.
-/
import proofs.«426240_j58334245814317_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowOps

open Cert.KernelIdeal Cert.KernelIdeal.Gen Idealize.ShloMosaic Idealize.ShloMosaic.ValueIdx

/-! ## rows × features times features × features -/

theorem lhs1_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs1_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs1_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs1_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- Entry (t, g) of the product: the sum over the features f of left (t, f) times right (f, g). -/
theorem mm_rows {φ₁ φ₂ : FTy} (l : FVec Ideal S2048x256 φ₁) (r : FVec Ideal S256x256 φ₂) (t : Fin 2048) (g : Fin 256) :
    matmul dot_S2048x256_S256x256_S2048x256_1_0_0_1_n_n none l r (constant (F := Ideal) S2048x256 .f32 0x00000000#32) (ix2 t g)
      = ∑ f : Fin 256, l (ix2 t f) * r (ix2 f g) := by
  refine (Ideal.matmul_constant_zero_apply dot_S2048x256_S256x256_S2048x256_1_0_0_1_n_n none l r (ix2 t g)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 t g) ((contrEquiv1 dot_S2048x256_S256x256_S2048x256_1_0_0_1_n_n 256 rfl rfl).symm k) = ix2 t k := funext fun a => Fin.ext (by
    match a with
    | ⟨0, _⟩ => exact lhs1_0 _ _
    | ⟨1, _⟩ => exact (lhs1_1 _ _).trans hk)
  have er : dot_S2048x256_S256x256_S2048x256_1_0_0_1_n_n.rhsIdx (ix2 t g) ((contrEquiv1 dot_S2048x256_S256x256_S2048x256_1_0_0_1_n_n 256 rfl rfl).symm k) = ix2 k g := funext fun a => Fin.ext (by
    match a with
    | ⟨0, _⟩ => exact (rhs1_0 _ _).trans hk
    | ⟨1, _⟩ => exact rhs1_1 _ _)
  rw [el, er]

/-! ## classes × features times (positions × features) transposed -/

theorem lhs2_0 (i : S64x2048.Idx) (q : dot_S64x256_S2048x256_S64x2048_1_1_0_0_n_n.contr.Idx) :
    (dot_S64x256_S2048x256_S64x2048_1_1_0_0_n_n.lhsIdx i q 0).val = (i 0).val := by
  unfold DotDims.lhsIdx
  rw [dif_neg (show ¬(0 : Fin S64x256.rank) ∈ dot_S64x256_S2048x256_S64x2048_1_1_0_0_n_n.lhsBatch by decide), dif_pos (show (0 : Fin S64x256.rank) ∈ dot_S64x256_S2048x256_S64x2048_1_1_0_0_n_n.lhsNonContracting by decide)]
  rfl
theorem lhs2_1 (i : S64x2048.Idx) (q : dot_S64x256_S2048x256_S64x2048_1_1_0_0_n_n.contr.Idx) :
    (dot_S64x256_S2048x256_S64x2048_1_1_0_0_n_n.lhsIdx i q 1).val = (q ⟨0, by decide⟩).val :=
  dot_S64x256_S2048x256_S64x2048_1_1_0_0_n_n.lhsIdx_val_of_single rfl i q
theorem rhs2_0 (i : S64x2048.Idx) (q : dot_S64x256_S2048x256_S64x2048_1_1_0_0_n_n.contr.Idx) :
    (dot_S64x256_S2048x256_S64x2048_1_1_0_0_n_n.rhsIdx i q 0).val = (i 1).val := by
  unfold DotDims.rhsIdx
  rw [dif_neg (show ¬(0 : Fin S2048x256.rank) ∈ dot_S64x256_S2048x256_S64x2048_1_1_0_0_n_n.rhsBatch by decide), dif_pos (show (0 : Fin S2048x256.rank) ∈ dot_S64x256_S2048x256_S64x2048_1_1_0_0_n_n.rhsNonContracting by decide)]
  rfl
theorem rhs2_1 (i : S64x2048.Idx) (q : dot_S64x256_S2048x256_S64x2048_1_1_0_0_n_n.contr.Idx) :
    (dot_S64x256_S2048x256_S64x2048_1_1_0_0_n_n.rhsIdx i q 1).val = (q ⟨0, by decide⟩).val :=
  dot_S64x256_S2048x256_S64x2048_1_1_0_0_n_n.rhsIdx_val_of_single rfl i q

/-- Entry (c, t) of the product: the sum over the features f of left (c, f) times right (t, f). -/
theorem mm_logit {φ₁ φ₂ : FTy} (l : FVec Ideal S64x256 φ₁) (r : FVec Ideal S2048x256 φ₂) (c : Fin 64) (t : Fin 2048) :
    matmul dot_S64x256_S2048x256_S64x2048_1_1_0_0_n_n none l r (constant (F := Ideal) S64x2048 .f32 0x00000000#32) (ix2 c t)
      = ∑ f : Fin 256, l (ix2 c f) * r (ix2 t f) := by
  refine (Ideal.matmul_constant_zero_apply dot_S64x256_S2048x256_S64x2048_1_1_0_0_n_n none l r (ix2 c t)).trans ?_
  rw [← Equiv.sum_comp (contrEquiv1 dot_S64x256_S2048x256_S64x2048_1_1_0_0_n_n 256 rfl rfl).symm]
  refine Finset.sum_congr rfl fun k _ => ?_
  have hk := contrEquiv1_symm_val dot_S64x256_S2048x256_S64x2048_1_1_0_0_n_n 256 rfl rfl k
  have el : dot_S64x256_S2048x256_S64x2048_1_1_0_0_n_n.lhsIdx (ix2 c t) ((contrEquiv1 dot_S64x256_S2048x256_S64x2048_1_1_0_0_n_n 256 rfl rfl).symm k) = ix2 c k := funext fun a => Fin.ext (by
    match a with
    | ⟨0, _⟩ => exact lhs2_0 _ _
    | ⟨1, _⟩ => exact (lhs2_1 _ _).trans hk)
  have er : dot_S64x256_S2048x256_S64x2048_1_1_0_0_n_n.rhsIdx (ix2 c t) ((contrEquiv1 dot_S64x256_S2048x256_S64x2048_1_1_0_0_n_n 256 rfl rfl).symm k) = ix2 t k := funext fun a => Fin.ext (by
    match a with
    | ⟨0, _⟩ => exact rhs2_0 _ _
    | ⟨1, _⟩ => exact (rhs2_1 _ _).trans hk)
  rw [el, er]

/-! ## classes × positions times positions × features -/

theorem lhs3_0 (i : S64x256.Idx) (q : dot_S64x2048_S2048x256_S64x256_1_0_0_1_n_n.contr.Idx) :
    (dot_S64x2048_S2048x256_S64x256_1_0_0_1_n_n.lhsIdx i q 0).val = (i 0).val := by
  unfold DotDims.lhsIdx
  rw [dif_neg (show ¬(0 : Fin S64x2048.rank) ∈ dot_S64x2048_S2048x256_S64x256_1_0_0_1_n_n.lhsBatch by decide), dif_pos (show (0 : Fin S64x2048.rank) ∈ dot_S64x2048_S2048x256_S64x256_1_0_0_1_n_n.lhsNonContracting by decide)]
  rfl
theorem lhs3_1 (i : S64x256.Idx) (q : dot_S64x2048_S2048x256_S64x256_1_0_0_1_n_n.contr.Idx) :
    (dot_S64x2048_S2048x256_S64x256_1_0_0_1_n_n.lhsIdx i q 1).val = (q ⟨0, by decide⟩).val :=
  dot_S64x2048_S2048x256_S64x256_1_0_0_1_n_n.lhsIdx_val_of_single rfl i q
theorem rhs3_0 (i : S64x256.Idx) (q : dot_S64x2048_S2048x256_S64x256_1_0_0_1_n_n.contr.Idx) :
    (dot_S64x2048_S2048x256_S64x256_1_0_0_1_n_n.rhsIdx i q 0).val = (q ⟨0, by decide⟩).val :=
  dot_S64x2048_S2048x256_S64x256_1_0_0_1_n_n.rhsIdx_val_of_single rfl i q
theorem rhs3_1 (i : S64x256.Idx) (q : dot_S64x2048_S2048x256_S64x256_1_0_0_1_n_n.contr.Idx) :
    (dot_S64x2048_S2048x256_S64x256_1_0_0_1_n_n.rhsIdx i q 1).val = (i 1).val := by
  unfold DotDims.rhsIdx
  rw [dif_neg (show ¬(1 : Fin S2048x256.rank) ∈ dot_S64x2048_S2048x256_S64x256_1_0_0_1_n_n.rhsBatch by decide), dif_pos (show (1 : Fin S2048x256.rank) ∈ dot_S64x2048_S2048x256_S64x256_1_0_0_1_n_n.rhsNonContracting by decide)]
  rfl

/-- Entry (c, f) of the product: the sum over the positions t of left (c, t) times right (t, f). -/
theorem mm_pool {φ₁ φ₂ : FTy} (l : FVec Ideal S64x2048 φ₁) (r : FVec Ideal S2048x256 φ₂) (c : Fin 64) (f : Fin 256) :
    matmul dot_S64x2048_S2048x256_S64x256_1_0_0_1_n_n none l r (constant (F := Ideal) S64x256 .f32 0x00000000#32) (ix2 c f)
      = ∑ t : Fin 2048, l (ix2 c t) * r (ix2 t f) := by
  refine (Ideal.matmul_constant_zero_apply dot_S64x2048_S2048x256_S64x256_1_0_0_1_n_n none l r (ix2 c f)).trans ?_
  rw [← Equiv.sum_comp (contrEquiv1 dot_S64x2048_S2048x256_S64x256_1_0_0_1_n_n 2048 rfl rfl).symm]
  refine Finset.sum_congr rfl fun k _ => ?_
  have hk := contrEquiv1_symm_val dot_S64x2048_S2048x256_S64x256_1_0_0_1_n_n 2048 rfl rfl k
  have el : dot_S64x2048_S2048x256_S64x256_1_0_0_1_n_n.lhsIdx (ix2 c f) ((contrEquiv1 dot_S64x2048_S2048x256_S64x256_1_0_0_1_n_n 2048 rfl rfl).symm k) = ix2 c k := funext fun a => Fin.ext (by
    match a with
    | ⟨0, _⟩ => exact lhs3_0 _ _
    | ⟨1, _⟩ => exact (lhs3_1 _ _).trans hk)
  have er : dot_S64x2048_S2048x256_S64x256_1_0_0_1_n_n.rhsIdx (ix2 c f) ((contrEquiv1 dot_S64x2048_S2048x256_S64x256_1_0_0_1_n_n 2048 rfl rfl).symm k) = ix2 k f := funext fun a => Fin.ext (by
    match a with
    | ⟨0, _⟩ => exact (rhs3_0 _ _).trans hk
    | ⟨1, _⟩ => exact rhs3_1 _ _)
  rw [el, er]

/-! ## A sum over the lanes -/

/-- The reduced index c with position k put back is (c, k). -/
theorem lift_lane (h : S64x2048.Reduces [1] S64) (c : Fin 64) (k : Fin (S64x2048.size 1)) :
    h.lift (ix1 c) k = ix2 c (⟨k.val, k.isLt⟩ : Fin 2048) := by
  funext a; apply Fin.ext
  fin_cases a <;> rfl

/-- The sum over the lanes of a classes × positions array, from zero, at class c: the sum over the positions. -/
theorem sum_lanes (src : FVec Ideal S64x2048 .f32) (h : S64x2048.Reduces [1] S64) (hφ : FKind.Formats .f32)
    (hacc : (0x00000000#32 : BitVec 32) = FKind.add.neutral .f32 hφ) (c : Fin 64) :
    multiReduction .add [1] S64 src 0x00000000#32 h hφ hacc (ix1 c) = ∑ t : Fin 2048, src (ix2 c t) := by
  refine (Ideal.multiReduction_add_single src 0x00000000#32 h hφ hacc (ix1 c)).trans ?_
  exact Finset.sum_congr rfl fun k _ => congrArg src (lift_lane h c k)

/-! ## Columns -/

variable {α : Type}

/-- A vector of length a made an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a × 1 column spread over b positions reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.RowOps

end
-- ==== Proof.RowValue.lean ====
/-
  One batch row of the kernel over the extended reals, entry by entry: it is the specification's row.

  The row's arithmetic is respelt here in six layers, each a few vector operations on the one before (hidden layer, logits,
  masked weights, regularised denominator, attention scores, pooled output), and the two stored values of a row are the
  last two layers under a leading unit axis. Read at an entry: a product into a zero accumulator is a sum of products, the
  lane sum a sum over the positions, and every change of format the identity, so
    hidden (t, g)  = tanh (Σ_f x (t, f) · W (f, g) + b g),
    logit (c, t)   = Σ_f u (c, f) · hidden (t, f) + Σ_f u (c, f) · (hidden − hidden) (t, f) + Σ_f (u − u) (c, f) · hidden (t, f),
  and likewise for the pooled output with the attention scores in the place of u and the row in the place of the hidden
  layer. With u real-valued the logit's two corrections vanish (the hidden layer is real everywhere); with the row real-valued
  and the mask a nonnegative real the pooled output's vanish too (the attention scores are then real).
-/
import proofs.«426240_j58334245814317_3_alg».proof.Proof.Rows
import proofs.«426240_j58334245814317_3_alg».proof.Proof.RowOps
import proofs.«426240_j58334245814317_3_alg».proof.Proof.Spec

noncomputable section

namespace Cert.KernelIdeal.RowValue

open Cert.KernelIdeal Cert.KernelIdeal.Gen Cert.KernelIdeal.Rows Cert.KernelIdeal.RowOps Cert.AttnSpec
open Idealize.ShloMosaic Idealize.ShloMosaic.ValueIdx

variable (w : Vec Ideal S256x256 .f32) (b : Vec Ideal S1x256 .f32) (u : Vec Ideal S64x256 .f32)
  (xb : Vec Ideal S1x2048x256 .f32) (mb : Vec Ideal S1x1x2048 .f32)

/-! ## The layers -/

/-- The row as positions × features. -/
def xrow : FVec Ideal S2048x256 .f32 := shapeCast S2048x256 xb shapeCasts_S1x2048x256_S2048x256

/-- The hidden layer, positions × features. -/
def hidK : FVec Ideal S2048x256 .f32 :=
  tanh (addf (matmul dot_S2048x256_S256x256_S2048x256_1_0_0_1_n_n none (truncf .bf16 (xrow xb) bitsLt_bf16_f32) (truncf .bf16 w bitsLt_bf16_f32)
      (constant (F := Ideal) S2048x256 .f32 0x00000000#32))
    (broadcastTo S2048x256 (shapeCast S1x256 b shapeCasts_S1x256_S1x256) broadcasts_S1x256_S2048x256))

/-- The logits, classes × positions, in three passes. -/
def logitK : FVec Ideal S64x2048 .f32 :=
  addf (addf
      (matmul dot_S64x256_S2048x256_S64x2048_1_1_0_0_n_n none (truncf .bf16 u bitsLt_bf16_f32) (truncf .bf16 (hidK w b xb) bitsLt_bf16_f32)
        (constant (F := Ideal) S64x2048 .f32 0x00000000#32))
      (matmul dot_S64x256_S2048x256_S64x2048_1_1_0_0_n_n none (truncf .bf16 u bitsLt_bf16_f32)
        (truncf .bf16 (subf (hidK w b xb) (hidK w b xb)) bitsLt_bf16_f32) (constant (F := Ideal) S64x2048 .f32 0x00000000#32)))
    (matmul dot_S64x256_S2048x256_S64x2048_1_1_0_0_n_n none (truncf .bf16 (subf u u) bitsLt_bf16_f32) (truncf .bf16 (hidK w b xb) bitsLt_bf16_f32)
      (constant (F := Ideal) S64x2048 .f32 0x00000000#32))

/-- The masked weights, classes × positions. -/
def wgtK : FVec Ideal S64x2048 .f32 :=
  mulf (exp (logitK w b u xb))
    (broadcastTo S64x2048 (shapeCast S1x2048 mb shapeCasts_S1x1x2048_S1x2048) broadcasts_S1x2048_S64x2048)

/-- The regularised denominator, a column over the classes. -/
def denK : FVec Ideal S64x1 .f32 :=
  addf (shapeCast S64x1 (multiReduction .add [1] S64 (wgtK w b u xb mb) 0x00000000#32 reduces_S64x2048_S64 (.inl rfl) rfl)
      shapeCasts_S64_S64x1)
    (broadcast S64x1 (Scalar.ofBits (F := Ideal) .f32 0x33D6BF95#32))

/-- The attention scores, classes × positions. -/
def attnK : FVec Ideal S64x2048 .f32 :=
  divf (wgtK w b u xb mb) (broadcastTo S64x2048 (denK w b u xb mb) broadcasts_S64x1_S64x2048)

/-- The pooled output, classes × features, in three passes. -/
def poolK : FVec Ideal S64x256 .f32 :=
  addf (addf
      (matmul dot_S64x2048_S2048x256_S64x256_1_0_0_1_n_n none (truncf .bf16 (attnK w b u xb mb) bitsLt_bf16_f32) (truncf .bf16 (xrow xb) bitsLt_bf16_f32)
        (constant (F := Ideal) S64x256 .f32 0x00000000#32))
      (matmul dot_S64x2048_S2048x256_S64x256_1_0_0_1_n_n none (truncf .bf16 (attnK w b u xb mb) bitsLt_bf16_f32)
        (truncf .bf16 (subf (xrow xb) (xrow xb)) bitsLt_bf16_f32) (constant (F := Ideal) S64x256 .f32 0x00000000#32)))
    (matmul dot_S64x2048_S2048x256_S64x256_1_0_0_1_n_n none (truncf .bf16 (subf (attnK w b u xb mb) (attnK w b u xb mb)) bitsLt_bf16_f32)
      (truncf .bf16 (xrow xb) bitsLt_bf16_f32) (constant (F := Ideal) S64x256 .f32 0x00000000#32))

/-- What the body stores for a row's scores is the attention layer under a leading unit axis. -/
theorem attnRow_eq : attnRow (F := Ideal) w b u xb mb
    = shapeCast S1x64x2048 (attnK w b u xb mb) shapeCasts_S64x2048_S1x64x2048 := rfl

/-- What the body stores for a row's output is the pooled layer under a leading unit axis. -/
theorem outRow_eq : outRow (F := Ideal) w b u xb mb
    = shapeCast S1x64x256 (poolK w b u xb mb) shapeCasts_S64x256_S1x64x256 := rfl

/-! ## The layers at an entry -/

/-- The row, the weights, the bias, the class vectors and the mask as the specification takes them. -/
abbrev sX : Fin 2048 → Fin 256 → EReal := fun t f => xb (ix3 (0 : Fin 1) t f)
abbrev sW : Fin 256 → Fin 256 → EReal := fun f g => w (ix2 f g)
abbrev sB : Fin 256 → EReal := fun g => b (ix2 (0 : Fin 1) g)
abbrev sU : Fin 64 → Fin 256 → EReal := fun c f => u (ix2 c f)
abbrev sM : Fin 2048 → EReal := fun t => mb (ix3 (0 : Fin 1) (0 : Fin 1) t)

theorem xrow_apply (t : Fin 2048) (f : Fin 256) : xrow xb (ix2 t f) = xb (ix3 (0 : Fin 1) t f) :=
  shapeCast_1ab_ab_apply xb _ t f

theorem hidK_apply (t : Fin 2048) (g : Fin 256) : hidK w b xb (ix2 t g) = hid (sX xb) (sW w) (sB b) t g := by
  unfold hidK hid
  show Ideal.tanh (_ + _) = _
  rw [mm_rows, broadcastTo_1b_ab_apply, shapeCast_self]
  refine congrArg (fun s => Ideal.tanh (s + b (ix2 (0 : Fin 1) g))) (Finset.sum_congr rfl fun f _ => ?_)
  show xrow xb (ix2 t f) * w (ix2 f g) = _
  rw [xrow_apply]

variable {u} in
theorem logitK_apply (hu : ∀ c f, IsReal (u (ix2 c f))) (c : Fin 64) (t : Fin 2048) :
    logitK w b u xb (ix2 c t) = logit (sX xb) (sW w) (sB b) (sU u) t c := by
  unfold logitK
  show (_ + _) + _ = _
  rw [mm_logit, mm_logit, mm_logit]
  refine Eq.trans ?_ (logit_three_pass (sX xb) (sW w) (sB b) (U := sU u) hu t c)
  refine congrArg₂ (· + ·) (congrArg₂ (· + ·) ?_ ?_) ?_
  · exact Finset.sum_congr rfl fun f _ => congrArg (u (ix2 c f) * ·) (hidK_apply w b xb t f)
  · refine Finset.sum_congr rfl fun f _ => ?_
    show u (ix2 c f) * (hidK w b xb (ix2 t f) - hidK w b xb (ix2 t f)) = _
    rw [hidK_apply]
  · refine Finset.sum_congr rfl fun f _ => ?_
    show (u (ix2 c f) - u (ix2 c f)) * hidK w b xb (ix2 t f) = _
    rw [hidK_apply]

variable {u} in
theorem wgtK_apply (hu : ∀ c f, IsReal (u (ix2 c f))) (c : Fin 64) (t : Fin 2048) :
    wgtK w b u xb mb (ix2 c t) = wgt (sX xb) (sW w) (sB b) (sU u) (sM mb) t c := by
  unfold wgtK wgt
  show Ideal.exp (logitK w b u xb (ix2 c t)) * _ = _
  rw [logitK_apply w b xb hu, broadcastTo_1b_ab_apply, shapeCast_1ab_ab_apply]

variable {u} in
theorem denK_apply (hu : ∀ c f, IsReal (u (ix2 c f))) (c : Fin 64) (z : Fin 1) :
    denK w b u xb mb (ix2 c z) = den (sX xb) (sW w) (sB b) (sU u) (sM mb) c + epsv := by
  unfold denK den
  show _ + Ideal.ofBits .f32 0x33D6BF95#32 = _
  rw [shapeCast_a_a1_apply]
  exact congrArg (· + epsv) ((sum_lanes _ _ _ _ c).trans (Finset.sum_congr rfl fun t _ => wgtK_apply w b xb mb hu c t))

variable {u} in
theorem attnK_apply (hu : ∀ c f, IsReal (u (ix2 c f))) (c : Fin 64) (t : Fin 2048) :
    attnK w b u xb mb (ix2 c t) = attn (sX xb) (sW w) (sB b) (sU u) (sM mb) epsv t c := by
  unfold attnK attn
  show Ideal.div (wgtK w b u xb mb (ix2 c t)) _ = _
  rw [broadcastTo_a1_ab_apply, denK_apply w b xb mb hu, wgtK_apply w b xb mb hu]

variable {u xb mb} in
theorem poolK_apply (hx : ∀ t f, IsReal (xb (ix3 (0 : Fin 1) t f))) (hu : ∀ c f, IsReal (u (ix2 c f)))
    (hm : ∀ t, ∃ r : ℝ, 0 ≤ r ∧ mb (ix3 (0 : Fin 1) (0 : Fin 1) t) = (r : EReal)) (c : Fin 64) (f : Fin 256) :
    poolK w b u xb mb (ix2 c f) = outv (sX xb) (sW w) (sB b) (sU u) (sM mb) epsv c f := by
  unfold poolK
  show (_ + _) + _ = _
  rw [mm_pool, mm_pool, mm_pool]
  refine Eq.trans ?_ (outv_three_pass (x := sX xb) (sW w) (sB b) (U := sU u) (mk := sM mb) (eps := epsv) hx hu hm epsv_pos c f)
  refine congrArg₂ (· + ·) (congrArg₂ (· + ·) ?_ ?_) ?_
  · refine Finset.sum_congr rfl fun t _ => ?_
    show attnK w b u xb mb (ix2 c t) * xrow xb (ix2 t f) = _
    rw [attnK_apply w b xb mb hu, xrow_apply]
  · refine Finset.sum_congr rfl fun t _ => ?_
    show attnK w b u xb mb (ix2 c t) * (xrow xb (ix2 t f) - xrow xb (ix2 t f)) = _
    rw [attnK_apply w b xb mb hu, xrow_apply]
  · refine Finset.sum_congr rfl fun t _ => ?_
    show (attnK w b u xb mb (ix2 c t) - attnK w b u xb mb (ix2 c t)) * xrow xb (ix2 t f) = _
    rw [attnK_apply w b xb mb hu, xrow_apply]

/-! ## The two stored values of a row -/

variable {u} in
/-- A row's stored scores at (class c, position t): the specification's attention weight. -/
theorem attnRow_apply (hu : ∀ c f, IsReal (u (ix2 c f))) (z : Fin 1) (c : Fin 64) (t : Fin 2048) :
    attnRow (F := Ideal) w b u xb mb (ix3 z c t) = attn (sX xb) (sW w) (sB b) (sU u) (sM mb) epsv t c := by
  rw [attnRow_eq, shapeCast_ab_1ab_apply, attnK_apply w b xb mb hu]

variable {u xb mb} in
/-- A row's stored output at (class c, feature f): the specification's pooled output. -/
theorem outRow_apply (hx : ∀ t f, IsReal (xb (ix3 (0 : Fin 1) t f))) (hu : ∀ c f, IsReal (u (ix2 c f)))
    (hm : ∀ t, ∃ r : ℝ, 0 ≤ r ∧ mb (ix3 (0 : Fin 1) (0 : Fin 1) t) = (r : EReal)) (z : Fin 1) (c : Fin 64) (f : Fin 256) :
    outRow (F := Ideal) w b u xb mb (ix3 z c f) = outv (sX xb) (sW w) (sB b) (sU u) (sM mb) epsv c f := by
  rw [outRow_eq, shapeCast_ab_1ab_apply, poolK_apply w b hx hu hm]

end Cert.KernelIdeal.RowValue

end
-- ==== Proof.BlockValue.lean ====
/-
  A block of eight rows: each output buffer after the body is one function of the block index.

  Row n of the output buffer (n = 0 … 7) is stored from slice n of the input block and slice n of the mask block, the
  weights, bias and class vectors whole. Written through unit rectangles at offset (n, 0, 0), the eight stores tile the
  buffer, and entry (n, c, f) of what they leave is the specification's pooled output of row n of the block at (c, f);
  likewise entry (n, c, t) of the scores buffer is the specification's attention weight of row n at (t, c). The
  hypotheses are those of the three-pass law: the input block and the class vectors real-valued, the mask block a
  nonnegative real at every entry.
-/
import proofs.«426240_j58334245814317_3_alg».proof.Proof.RowValue

noncomputable section

namespace Cert.KernelIdeal.BlockValue

open Cert.KernelIdeal Cert.KernelIdeal.Gen Cert.KernelIdeal.Rows Cert.KernelIdeal.RowValue Cert.AttnSpec
open Idealize.ShloMosaic Idealize.ShloMosaic.ValueIdx

/-- Under a unit rectangle of one row at offset (n, 0, 0), local index (z, p, q) is the parent's (n, p, q). -/
theorem unit_row3 {A B C : ℕ} (n : ℕ) (hn : n < A)
    (inb : ∀ a, (![n, 0, 0] : Fin 3 → Nat) a + (⟨3, ![1, B, C]⟩ : Shape).size a ≤ (⟨3, ![A, B, C]⟩ : Shape).size a)
    (z : Fin 1) (p : Fin B) (q : Fin C) :
    (Rect.unit (s := ⟨3, ![A, B, C]⟩) ![n, 0, 0] (⟨3, ![1, B, C]⟩ : Shape).size inb).idx (ix3 z p q) = ix3 (⟨n, hn⟩ : Fin A) p q := by
  funext a; apply Fin.ext
  match a with
  | ⟨0, _⟩ => show n + 1 * z.val = n; have := z.isLt; omega
  | ⟨1, _⟩ => show 0 + 1 * p.val = p.val; omega
  | ⟨2, _⟩ => show 0 + 1 * q.val = q.val; omega

theorem hz2 : (![0, 0] : Fin 2 → Nat) = fun _ => 0 := funext fun a => by fin_cases a <;> rfl

variable (x0 : Vec Ideal S8x2048x256 .f32) (x1 : Vec Ideal S8x1x2048 .f32) (x2 : Vec Ideal S256x256 .f32)
  (x3 : Vec Ideal S1x256 .f32) (x4 : Vec Ideal S64x256 .f32)

/-- The output buffer as one function of the block index (n, c, f): the pooled output of row n at (c, f). -/
def blkOut : S8x64x256.Idx → EReal := fun y =>
  outv (fun t f => x0 (ix3 (y 0) t f)) (fun f g => x2 (ix2 f g)) (fun g => x3 (ix2 (0 : Fin 1) g)) (fun c f => x4 (ix2 c f))
    (fun t => x1 (ix3 (y 0) (0 : Fin 1) t)) epsv (y 1) (y 2)

/-- The scores buffer as one function of the block index (n, c, t): the attention weight of row n at (t, c). -/
def blkAttn : S8x64x2048.Idx → EReal := fun y =>
  attn (fun t f => x0 (ix3 (y 0) t f)) (fun f g => x2 (ix2 f g)) (fun g => x3 (ix2 (0 : Fin 1) g)) (fun c f => x4 (ix2 c f))
    (fun t => x1 (ix3 (y 0) (0 : Fin 1) t)) epsv (y 2) (y 1)

variable {x0 x1 x4}

/-- The store of row n's pooled output is the restriction of `blkOut` to row n. -/
theorem out_piece (hx : ∀ i, IsReal (x0 i)) (hu : ∀ i, IsReal (x4 i)) (hm : ∀ i, ∃ r : ℝ, 0 ≤ r ∧ x1 i = (r : EReal))
    (n : ℕ) (hn : n < 8)
    (inb0 : ∀ a, (![n, 0, 0] : Fin 3 → Nat) a + S1x2048x256.size a ≤ S8x2048x256.size a)
    (inb1 : ∀ a, (![n, 0, 0] : Fin 3 → Nat) a + S1x1x2048.size a ≤ S8x1x2048.size a)
    (inb5 : ∀ a, (![n, 0, 0] : Fin 3 → Nat) a + S1x64x256.size a ≤ S8x64x256.size a)
    (x : S1x64x256.Idx) :
    outRow (F := Ideal) (View.ld x2 r0_0) (View.ld x3 r0_1) (View.ld x4 r0_2)
        (View.ld x0 (Rect.unit (s := S8x2048x256) ![n, 0, 0] S1x2048x256.size inb0))
        (View.ld x1 (Rect.unit (s := S8x1x2048) ![n, 0, 0] S1x1x2048.size inb1)) x
      = blkOut x0 x1 x2 x3 x4 ((Rect.unit (s := S8x64x256) ![n, 0, 0] S1x64x256.size inb5).emb x) := by
  obtain ⟨z, c, f, rfl⟩ : ∃ (z : Fin 1) (c : Fin 64) (f : Fin 256), x = ix3 z c f := ⟨x 0, x 1, x 2, eq_ix3 x⟩
  have eW : View.ld x2 r0_0 = x2 := View.ld_unit_zero (S := S256x256) hz2 _ x2
  have eB : View.ld x3 r0_1 = x3 := View.ld_unit_zero (S := S1x256) hz2 _ x3
  have eU : View.ld x4 r0_2 = x4 := View.ld_unit_zero (S := S64x256) hz2 _ x4
  rw [eW, eB, eU]
  rw [outRow_apply x2 x3 (u := x4) (xb := View.ld x0 (Rect.unit (s := S8x2048x256) ![n, 0, 0] S1x2048x256.size inb0))
    (mb := View.ld x1 (Rect.unit (s := S8x1x2048) ![n, 0, 0] S1x1x2048.size inb1)) (fun t f => hx _) (fun c f => hu _) (fun t => hm _) z c f]
  have e5 : (Rect.unit (s := S8x64x256) ![n, 0, 0] S1x64x256.size inb5).emb (ix3 z c f) = ix3 (⟨n, hn⟩ : Fin 8) c f :=
    unit_row3 n hn inb5 z c f
  have eX : sX (View.ld x0 (Rect.unit (s := S8x2048x256) ![n, 0, 0] S1x2048x256.size inb0))
      = fun t f => x0 (ix3 (⟨n, hn⟩ : Fin 8) t f) :=
    funext fun t => funext fun f => congrArg x0 (unit_row3 n hn inb0 0 t f)
  have eM : sM (View.ld x1 (Rect.unit (s := S8x1x2048) ![n, 0, 0] S1x1x2048.size inb1))
      = fun t => x1 (ix3 (⟨n, hn⟩ : Fin 8) (0 : Fin 1) t) :=
    funext fun t => congrArg x1 (unit_row3 n hn inb1 0 0 t)
  rw [e5, eX, eM]
  rfl

/-- The store of row n's scores is the restriction of `blkAttn` to row n. -/
theorem attn_piece (hu : ∀ i, IsReal (x4 i))
    (n : ℕ) (hn : n < 8)
    (inb0 : ∀ a, (![n, 0, 0] : Fin 3 → Nat) a + S1x2048x256.size a ≤ S8x2048x256.size a)
    (inb1 : ∀ a, (![n, 0, 0] : Fin 3 → Nat) a + S1x1x2048.size a ≤ S8x1x2048.size a)
    (inb6 : ∀ a, (![n, 0, 0] : Fin 3 → Nat) a + S1x64x2048.size a ≤ S8x64x2048.size a)
    (x : S1x64x2048.Idx) :
    attnRow (F := Ideal) (View.ld x2 r0_0) (View.ld x3 r0_1) (View.ld x4 r0_2)
        (View.ld x0 (Rect.unit (s := S8x2048x256) ![n, 0, 0] S1x2048x256.size inb0))
        (View.ld x1 (Rect.unit (s := S8x1x2048) ![n, 0, 0] S1x1x2048.size inb1)) x
      = blkAttn x0 x1 x2 x3 x4 ((Rect.unit (s := S8x64x2048) ![n, 0, 0] S1x64x2048.size inb6).emb x) := by
  obtain ⟨z, c, t, rfl⟩ : ∃ (z : Fin 1) (c : Fin 64) (t : Fin 2048), x = ix3 z c t := ⟨x 0, x 1, x 2, eq_ix3 x⟩
  have eW : View.ld x2 r0_0 = x2 := View.ld_unit_zero (S := S256x256) hz2 _ x2
  have eB : View.ld x3 r0_1 = x3 := View.ld_unit_zero (S := S1x256) hz2 _ x3
  have eU : View.ld x4 r0_2 = x4 := View.ld_unit_zero (S := S64x256) hz2 _ x4
  rw [eW, eB, eU]
  rw [attnRow_apply x2 x3 (View.ld x0 (Rect.unit (s := S8x2048x256) ![n, 0, 0] S1x2048x256.size inb0))
    (View.ld x1 (Rect.unit (s := S8x1x2048) ![n, 0, 0] S1x1x2048.size inb1)) (u := x4) (fun c f => hu _) z c t]
  have e6 : (Rect.unit (s := S8x64x2048) ![n, 0, 0] S1x64x2048.size inb6).emb (ix3 z c t) = ix3 (⟨n, hn⟩ : Fin 8) c t :=
    unit_row3 n hn inb6 z c t
  have eX : sX (View.ld x0 (Rect.unit (s := S8x2048x256) ![n, 0, 0] S1x2048x256.size inb0))
      = fun t f => x0 (ix3 (⟨n, hn⟩ : Fin 8) t f) :=
    funext fun t => funext fun f => congrArg x0 (unit_row3 n hn inb0 0 t f)
  have eM : sM (View.ld x1 (Rect.unit (s := S8x1x2048) ![n, 0, 0] S1x1x2048.size inb1))
      = fun t => x1 (ix3 (⟨n, hn⟩ : Fin 8) (0 : Fin 1) t) :=
    funext fun t => congrArg x1 (unit_row3 n hn inb1 0 0 t)
  rw [e6, eX, eM]
  rfl

/-- The output buffer after the body is `blkOut` of the input blocks. -/
theorem out0_5_value (hx : ∀ i, IsReal (x0 i)) (hu : ∀ i, IsReal (x4 i)) (hm : ∀ i, ∃ r : ℝ, 0 ≤ r ∧ x1 i = (r : EReal)) :
    out0_5 x0 x1 x2 x3 x4 = blkOut x0 x1 x2 x3 x4 := by
  funext y
  rw [out0_5_rows]
  refine View.canon_apply_of_pieces (Val := Elt Ideal) (blkOut x0 x1 x2 x3 x4) _ ?_ y (cover0_5 _ _ _ _ _ _ _ _ y)
  intro p hp x
  simp only [List.mem_cons, List.not_mem_nil, or_false] at hp
  rcases hp with rfl | rfl | rfl | rfl | rfl | rfl | rfl | rfl
  · exact out_piece x2 x3 hx hu hm 7 (by decide) inb_S8x2048x256_S1x2048x256_7_0_0 inb_S8x1x2048_S1x1x2048_7_0_0 inb_S8x64x256_S1x64x256_7_0_0 x
  · exact out_piece x2 x3 hx hu hm 6 (by decide) inb_S8x2048x256_S1x2048x256_6_0_0 inb_S8x1x2048_S1x1x2048_6_0_0 inb_S8x64x256_S1x64x256_6_0_0 x
  · exact out_piece x2 x3 hx hu hm 5 (by decide) inb_S8x2048x256_S1x2048x256_5_0_0 inb_S8x1x2048_S1x1x2048_5_0_0 inb_S8x64x256_S1x64x256_5_0_0 x
  · exact out_piece x2 x3 hx hu hm 4 (by decide) inb_S8x2048x256_S1x2048x256_4_0_0 inb_S8x1x2048_S1x1x2048_4_0_0 inb_S8x64x256_S1x64x256_4_0_0 x
  · exact out_piece x2 x3 hx hu hm 3 (by decide) inb_S8x2048x256_S1x2048x256_3_0_0 inb_S8x1x2048_S1x1x2048_3_0_0 inb_S8x64x256_S1x64x256_3_0_0 x
  · exact out_piece x2 x3 hx hu hm 2 (by decide) inb_S8x2048x256_S1x2048x256_2_0_0 inb_S8x1x2048_S1x1x2048_2_0_0 inb_S8x64x256_S1x64x256_2_0_0 x
  · exact out_piece x2 x3 hx hu hm 1 (by decide) inb_S8x2048x256_S1x2048x256_1_0_0 inb_S8x1x2048_S1x1x2048_1_0_0 inb_S8x64x256_S1x64x256_1_0_0 x
  · exact out_piece x2 x3 hx hu hm 0 (by decide) inb_S8x2048x256_S1x2048x256_0_0_0 inb_S8x1x2048_S1x1x2048_0_0_0 inb_S8x64x256_S1x64x256_0_0_0 x

/-- The scores buffer after the body is `blkAttn` of the input blocks. -/
theorem out0_6_value (hu : ∀ i, IsReal (x4 i)) :
    out0_6 x0 x1 x2 x3 x4 = blkAttn x0 x1 x2 x3 x4 := by
  funext y
  rw [out0_6_rows]
  refine View.canon_apply_of_pieces (Val := Elt Ideal) (blkAttn x0 x1 x2 x3 x4) _ ?_ y (cover0_6 _ _ _ _ _ _ _ _ y)
  intro p hp x
  simp only [List.mem_cons, List.not_mem_nil, or_false] at hp
  rcases hp with rfl | rfl | rfl | rfl | rfl | rfl | rfl | rfl
  · exact attn_piece x2 x3 hu 7 (by decide) inb_S8x2048x256_S1x2048x256_7_0_0 inb_S8x1x2048_S1x1x2048_7_0_0 inb_S8x64x2048_S1x64x2048_7_0_0 x
  · exact attn_piece x2 x3 hu 6 (by decide) inb_S8x2048x256_S1x2048x256_6_0_0 inb_S8x1x2048_S1x1x2048_6_0_0 inb_S8x64x2048_S1x64x2048_6_0_0 x
  · exact attn_piece x2 x3 hu 5 (by decide) inb_S8x2048x256_S1x2048x256_5_0_0 inb_S8x1x2048_S1x1x2048_5_0_0 inb_S8x64x2048_S1x64x2048_5_0_0 x
  · exact attn_piece x2 x3 hu 4 (by decide) inb_S8x2048x256_S1x2048x256_4_0_0 inb_S8x1x2048_S1x1x2048_4_0_0 inb_S8x64x2048_S1x64x2048_4_0_0 x
  · exact attn_piece x2 x3 hu 3 (by decide) inb_S8x2048x256_S1x2048x256_3_0_0 inb_S8x1x2048_S1x1x2048_3_0_0 inb_S8x64x2048_S1x64x2048_3_0_0 x
  · exact attn_piece x2 x3 hu 2 (by decide) inb_S8x2048x256_S1x2048x256_2_0_0 inb_S8x1x2048_S1x1x2048_2_0_0 inb_S8x64x2048_S1x64x2048_2_0_0 x
  · exact attn_piece x2 x3 hu 1 (by decide) inb_S8x2048x256_S1x2048x256_1_0_0 inb_S8x1x2048_S1x1x2048_1_0_0 inb_S8x64x2048_S1x64x2048_1_0_0 x
  · exact attn_piece x2 x3 hu 0 (by decide) inb_S8x2048x256_S1x2048x256_0_0_0 inb_S8x1x2048_S1x1x2048_0_0_0 inb_S8x64x2048_S1x64x2048_0_0_0 x

end Cert.KernelIdeal.BlockValue

end
-- ==== Proof.ArrayValue.lean ====
/-
  From blocks to the two result arrays, and the kernel's run with both named.

  The grid has eight points; point k stages rows 8k … 8k+7 of the input (all positions and features), the same rows of
  the mask, and the weights, bias and class vectors whole, and writes back rows 8k … 8k+7 of both results. So entry
  (n, ·, ·) of a block at point k is entry (8k + n, ·, ·) of its array, the eight written blocks tile each result
  (the point over batch row r is r / 8), and each result ends as one function of the arrays as the region finds them.
  Two of those arrays are written by host operations before the region: the mask, each bit read as the real 0 or 1 and
  given a unit middle axis, and the bias as a one-row matrix. Read at an index they give the specification's row
  of the mask and its bias vector, and the mask is a nonnegative real at every entry.
-/
import proofs.«426240_j58334245814317_3_alg».proof.Proof.Gen.KernelIdeal.Value
import proofs.«426240_j58334245814317_3_alg».proof.Proof.BlockValue
import Idealize.ShloMosaic.Lib.StableHlo.Run

noncomputable section

namespace Cert.KernelIdeal.ArrayValue

open Cert.KernelIdeal Cert.KernelIdeal.Gen Cert.KernelIdeal.BlockValue Cert.AttnSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the eight points -/

theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0
    ∧ t.val < 8 :=
  (by decide +kernel : ∀ t : Fin grid0.N, _)

/-! ## The arrays as the region finds them, by their literal types -/

abbrev aX (c : Dev nD) : Vec Ideal S64x2048x256 .f32 := V m c main_arg0
abbrev aM (c : Dev nD) : Vec Ideal S64x1x2048 .f32 := V m c main_v1
abbrev aW (c : Dev nD) : Vec Ideal S256x256 .f32 := V m c main_arg1
abbrev aB (c : Dev nD) : Vec Ideal S1x256 .f32 := V m c main_v2
abbrev aU (c : Dev nD) : Vec Ideal S64x256 .f32 := V m c main_arg3

/-- The pooled output as a function of those arrays. -/
def KOut (X : Vec Ideal S64x2048x256 .f32) (M1 : Vec Ideal S64x1x2048 .f32) (Wt : Vec Ideal S256x256 .f32)
    (B2 : Vec Ideal S1x256 .f32) (Uu : Vec Ideal S64x256 .f32) : S64x64x256.Idx → EReal := fun i =>
  outv (fun t f => X (ix3 (i 0) t f)) (fun f g => Wt (ix2 f g)) (fun g => B2 (ix2 (0 : Fin 1) g)) (fun c f => Uu (ix2 c f))
    (fun t => M1 (ix3 (i 0) (0 : Fin 1) t)) epsv (i 1) (i 2)

/-- The attention scores as a function of those arrays. -/
def KAttn (X : Vec Ideal S64x2048x256 .f32) (M1 : Vec Ideal S64x1x2048 .f32) (Wt : Vec Ideal S256x256 .f32)
    (B2 : Vec Ideal S1x256 .f32) (Uu : Vec Ideal S64x256 .f32) : S64x64x2048.Idx → EReal := fun i =>
  attn (fun t f => X (ix3 (i 0) t f)) (fun f g => Wt (ix2 f g)) (fun g => B2 (ix2 (0 : Fin 1) g)) (fun c f => Uu (ix2 c f))
    (fun t => M1 (ix3 (i 0) (0 : Fin 1) t)) epsv (i 2) (i 1)

/-- A block whose rows are rows 8k … 8k+7 of the arrays: its pooled output at (n, c, f) is the arrays' at (8k + n, c, f). -/
theorem blkOut_eq (X : Vec Ideal S64x2048x256 .f32) (M1 : Vec Ideal S64x1x2048 .f32) (Wt : Vec Ideal S256x256 .f32)
    (B2 : Vec Ideal S1x256 .f32) (Uu : Vec Ideal S64x256 .f32)
    (x0 : Vec Ideal S8x2048x256 .f32) (x1 : Vec Ideal S8x1x2048 .f32) (x2 : Vec Ideal S256x256 .f32) (x3 : Vec Ideal S1x256 .f32)
    (x4 : Vec Ideal S64x256 .f32) (k : ℕ) (hk : k < 8)
    (h0 : ∀ (n : Fin 8) (t : Fin 2048) (f : Fin 256), x0 (ix3 n t f) = X (ix3 (⟨k * 8 + n.val, by omega⟩ : Fin 64) t f))
    (h1 : ∀ (n : Fin 8) (t : Fin 2048), x1 (ix3 n (0 : Fin 1) t) = M1 (ix3 (⟨k * 8 + n.val, by omega⟩ : Fin 64) (0 : Fin 1) t))
    (h2 : x2 = Wt) (h3 : x3 = B2) (h4 : x4 = Uu) (n : Fin 8) (c : Fin 64) (f : Fin 256) :
    blkOut x0 x1 x2 x3 x4 (ix3 n c f) = KOut X M1 Wt B2 Uu (ix3 (⟨k * 8 + n.val, by omega⟩ : Fin 64) c f) := by
  subst h2 h3 h4
  show outv (fun t f => x0 (ix3 n t f)) _ _ _ (fun t => x1 (ix3 n (0 : Fin 1) t)) epsv c f
    = outv (fun t f => X (ix3 (⟨k * 8 + n.val, by omega⟩ : Fin 64) t f)) _ _ _ (fun t => M1 (ix3 (⟨k * 8 + n.val, by omega⟩ : Fin 64) (0 : Fin 1) t)) epsv c f
  simp only [h0, h1]

theorem blkAttn_eq (X : Vec Ideal S64x2048x256 .f32) (M1 : Vec Ideal S64x1x2048 .f32) (Wt : Vec Ideal S256x256 .f32)
    (B2 : Vec Ideal S1x256 .f32) (Uu : Vec Ideal S64x256 .f32)
    (x0 : Vec Ideal S8x2048x256 .f32) (x1 : Vec Ideal S8x1x2048 .f32) (x2 : Vec Ideal S256x256 .f32) (x3 : Vec Ideal S1x256 .f32)
    (x4 : Vec Ideal S64x256 .f32) (k : ℕ) (hk : k < 8)
    (h0 : ∀ (n : Fin 8) (t : Fin 2048) (f : Fin 256), x0 (ix3 n t f) = X (ix3 (⟨k * 8 + n.val, by omega⟩ : Fin 64) t f))
    (h1 : ∀ (n : Fin 8) (t : Fin 2048), x1 (ix3 n (0 : Fin 1) t) = M1 (ix3 (⟨k * 8 + n.val, by omega⟩ : Fin 64) (0 : Fin 1) t))
    (h2 : x2 = Wt) (h3 : x3 = B2) (h4 : x4 = Uu) (n : Fin 8) (c : Fin 64) (t : Fin 2048) :
    blkAttn x0 x1 x2 x3 x4 (ix3 n c t) = KAttn X M1 Wt B2 Uu (ix3 (⟨k * 8 + n.val, by omega⟩ : Fin 64) c t) := by
  subst h2 h3 h4
  show attn (fun t f => x0 (ix3 n t f)) _ _ _ (fun t => x1 (ix3 n (0 : Fin 1) t)) epsv t c
    = attn (fun t f => X (ix3 (⟨k * 8 + n.val, by omega⟩ : Fin 64) t f)) _ _ _ (fun t => M1 (ix3 (⟨k * 8 + n.val, by omega⟩ : Fin 64) (0 : Fin 1) t)) epsv t c
  simp only [h0, h1]

/-! ## The windows' blocks by coordinates -/

theorem iblk0_apply (c : Dev nD) (t : Fin cfg0.N) (n : Fin 8) (p : Fin 2048) (f : Fin 256) :
    iblk m c 0 t (ix3 n p f) = aX m c (ix3 (⟨t.val * 8 + n.val, by have := (idx_facts t).2.2.2.2.2.2.2.2.2.2.2.2.2.2.2.2.2.2; omega⟩ : Fin 64) p f) := by
  obtain ⟨e0, e1, e2, -⟩ := idx_facts t
  show V m c main_arg0 (((cfg0.win 0).blk t).view.emb (ix3 n p f)) = V m c main_arg0 _
  refine congrArg (V m c main_arg0) (funext fun a => Fin.ext ?_)
  match a with
  | ⟨0, _⟩ => show win0_0.index t (0 : Fin 3) * 8 + 1 * n.val = t.val * 8 + n.val; omega
  | ⟨1, _⟩ => show win0_0.index t (1 : Fin 3) * 2048 + 1 * p.val = p.val; omega
  | ⟨2, _⟩ => show win0_0.index t (2 : Fin 3) * 256 + 1 * f.val = f.val; omega

theorem iblk1_apply (c : Dev nD) (t : Fin cfg0.N) (n : Fin 8) (z : Fin 1) (p : Fin 2048) :
    iblk m c 1 t (ix3 n z p) = aM m c (ix3 (⟨t.val * 8 + n.val, by have := (idx_facts t).2.2.2.2.2.2.2.2.2.2.2.2.2.2.2.2.2.2; omega⟩ : Fin 64) z p) := by
  obtain ⟨-, -, -, e0, e1, e2, -⟩ := idx_facts t
  show V m c main_v1 (((cfg0.win 1).blk t).view.emb (ix3 n z p)) = V m c main_v1 _
  refine congrArg (V m c main_v1) (funext fun a => Fin.ext ?_)
  match a with
  | ⟨0, _⟩ => show win0_1.index t (0 : Fin 3) * 8 + 1 * n.val = t.val * 8 + n.val; omega
  | ⟨1, _⟩ => show win0_1.index t (1 : Fin 3) * 1 + 1 * z.val = z.val; omega
  | ⟨2, _⟩ => show win0_1.index t (2 : Fin 3) * 2048 + 1 * p.val = p.val; omega

theorem iblk2_eq (c : Dev nD) (t : Fin cfg0.N) : iblk m c 2 t = aW m c := by
  obtain ⟨-, -, -, -, -, -, e0, e1, -⟩ := idx_facts t
  funext j
  show V m c main_arg1 (((cfg0.win 2).blk t).view.emb j) = V m c main_arg1 j
  refine congrArg (V m c main_arg1) (funext fun a => Fin.ext ?_)
  match a with
  | ⟨0, _⟩ => show win0_2.index t (0 : Fin 2) * 256 + 1 * (j 0).val = (j 0).val; omega
  | ⟨1, _⟩ => show win0_2.index t (1 : Fin 2) * 256 + 1 * (j 1).val = (j 1).val; omega

theorem iblk3_eq (c : Dev nD) (t : Fin cfg0.N) : iblk m c 3 t = aB m c := by
  obtain ⟨-, -, -, -, -, -, -, -, e0, e1, -⟩ := idx_facts t
  funext j
  show V m c main_v2 (((cfg0.win 3).blk t).view.emb j) = V m c main_v2 j
  refine congrArg (V m c main_v2) (funext fun a => Fin.ext ?_)
  match a with
  | ⟨0, _⟩ => show win0_3.index t (0 : Fin 2) * 1 + 1 * (j 0).val = (j 0).val; omega
  | ⟨1, _⟩ => show win0_3.index t (1 : Fin 2) * 256 + 1 * (j 1).val = (j 1).val; omega

theorem iblk4_eq (c : Dev nD) (t : Fin cfg0.N) : iblk m c 4 t = aU m c := by
  obtain ⟨-, -, -, -, -, -, -, -, -, -, e0, e1, -⟩ := idx_facts t
  funext j
  show V m c main_arg3 (((cfg0.win 4).blk t).view.emb j) = V m c main_arg3 j
  refine congrArg (V m c main_arg3) (funext fun a => Fin.ext ?_)
  match a with
  | ⟨0, _⟩ => show win0_4.index t (0 : Fin 2) * 64 + 1 * (j 0).val = (j 0).val; omega
  | ⟨1, _⟩ => show win0_4.index t (1 : Fin 2) * 256 + 1 * (j 1).val = (j 1).val; omega

theorem emb5 (t : Fin cfg0.N) (n : Fin 8) (c : Fin 64) (f : Fin 256) :
    ((cfg0.win 5).blk t).view.emb (ix3 n c f)
      = ix3 (⟨t.val * 8 + n.val, by have := (idx_facts t).2.2.2.2.2.2.2.2.2.2.2.2.2.2.2.2.2.2; omega⟩ : Fin 64) c f := by
  obtain ⟨-, -, -, -, -, -, -, -, -, -, -, -, e0, e1, e2, -⟩ := idx_facts t
  funext a; apply Fin.ext
  match a with
  | ⟨0, _⟩ => show win0_5.index t (0 : Fin 3) * 8 + 1 * n.val = t.val * 8 + n.val; omega
  | ⟨1, _⟩ => show win0_5.index t (1 : Fin 3) * 64 + 1 * c.val = c.val; omega
  | ⟨2, _⟩ => show win0_5.index t (2 : Fin 3) * 256 + 1 * f.val = f.val; omega

theorem emb6 (t : Fin cfg0.N) (n : Fin 8) (c : Fin 64) (p : Fin 2048) :
    ((cfg0.win 6).blk t).view.emb (ix3 n c p)
      = ix3 (⟨t.val * 8 + n.val, by have := (idx_facts t).2.2.2.2.2.2.2.2.2.2.2.2.2.2.2.2.2.2; omega⟩ : Fin 64) c p := by
  obtain ⟨-, -, -, -, -, -, -, -, -, -, -, -, -, -, -, e0, e1, e2, -⟩ := idx_facts t
  funext a; apply Fin.ext
  match a with
  | ⟨0, _⟩ => show win0_6.index t (0 : Fin 3) * 8 + 1 * n.val = t.val * 8 + n.val; omega
  | ⟨1, _⟩ => show win0_6.index t (1 : Fin 3) * 64 + 1 * c.val = c.val; omega
  | ⟨2, _⟩ => show win0_6.index t (2 : Fin 3) * 2048 + 1 * p.val = p.val; omega

/-! ## What each point writes back -/

variable {m}

/-- Point t writes back block t of the pooled output of the arrays as the region finds them. -/
theorem flushed5_eq (c : Dev nD) (hx : ∀ i, IsReal (aX m c i)) (hu : ∀ i, IsReal (aU m c i))
    (hm : ∀ i, ∃ r : ℝ, 0 ≤ r ∧ aM m c i = (r : EReal)) (t : Fin cfg0.N) :
    (dats m 0 c).flushed 5 t
      = ((cfg0.win 5).blk t).view.read (Elt Ideal) (KOut (aX m c) (aM m c) (aW m c) (aB m c) (aU m c)) := by
  rw [Value.flushed5]
  refine (congrArg ((cfg0.win 5).cut (grid0.coords t))
    (out0_5_value (x0 := iblk m c 0 t) (x1 := iblk m c 1 t) (iblk m c 2 t) (iblk m c 3 t) (x4 := iblk m c 4 t)
      (fun i => hx _) (fun i => by rw [iblk4_eq]; exact hu i) (fun i => hm _))).trans ?_
  refine funext fun (y : S8x64x256.Idx) => ?_
  obtain ⟨n, cc, f, rfl⟩ : ∃ (n : Fin 8) (cc : Fin 64) (f : Fin 256), y = ix3 n cc f := ⟨y 0, y 1, y 2, eq_ix3 y⟩
  show blkOut (iblk m c 0 t) (iblk m c 1 t) (iblk m c 2 t) (iblk m c 3 t) (iblk m c 4 t) (ix3 n cc f)
    = KOut (aX m c) (aM m c) (aW m c) (aB m c) (aU m c) (((cfg0.win 5).blk t).view.emb (ix3 n cc f))
  rw [emb5]
  exact blkOut_eq (aX m c) (aM m c) (aW m c) (aB m c) (aU m c) (iblk m c 0 t) (iblk m c 1 t) (iblk m c 2 t) (iblk m c 3 t)
    (iblk m c 4 t) t.val (idx_facts t).2.2.2.2.2.2.2.2.2.2.2.2.2.2.2.2.2.2 (fun n p f => iblk0_apply m c t n p f)
    (fun n p => iblk1_apply m c t n 0 p) (iblk2_eq m c t) (iblk3_eq m c t) (iblk4_eq m c t) n cc f

/-- Point t writes back block t of the attention scores of the arrays as the region finds them. -/
theorem flushed6_eq (c : Dev nD) (hu : ∀ i, IsReal (aU m c i)) (t : Fin cfg0.N) :
    (dats m 0 c).flushed 6 t
      = ((cfg0.win 6).blk t).view.read (Elt Ideal) (KAttn (aX m c) (aM m c) (aW m c) (aB m c) (aU m c)) := by
  rw [Value.flushed6]
  refine (congrArg ((cfg0.win 6).cut (grid0.coords t))
    (out0_6_value (x0 := iblk m c 0 t) (x1 := iblk m c 1 t) (iblk m c 2 t) (iblk m c 3 t) (x4 := iblk m c 4 t)
      (fun i => by rw [iblk4_eq]; exact hu i))).trans ?_
  refine funext fun (y : S8x64x2048.Idx) => ?_
  obtain ⟨n, cc, p, rfl⟩ : ∃ (n : Fin 8) (cc : Fin 64) (p : Fin 2048), y = ix3 n cc p := ⟨y 0, y 1, y 2, eq_ix3 y⟩
  show blkAttn (iblk m c 0 t) (iblk m c 1 t) (iblk m c 2 t) (iblk m c 3 t) (iblk m c 4 t) (ix3 n cc p)
    = KAttn (aX m c) (aM m c) (aW m c) (aB m c) (aU m c) (((cfg0.win 6).blk t).view.emb (ix3 n cc p))
  rw [emb6]
  exact blkAttn_eq (aX m c) (aM m c) (aW m c) (aB m c) (aU m c) (iblk m c 0 t) (iblk m c 1 t) (iblk m c 2 t) (iblk m c 3 t)
    (iblk m c 4 t) t.val (idx_facts t).2.2.2.2.2.2.2.2.2.2.2.2.2.2.2.2.2.2 (fun n p f => iblk0_apply m c t n p f)
    (fun n p => iblk1_apply m c t n 0 p) (iblk2_eq m c t) (iblk3_eq m c t) (iblk4_eq m c t) n cc p

/-! ## The written blocks tile each result -/

theorem mem_blk5 (t : Fin cfg0.N) (i : S64x64x256.Idx) :
    i ∈ ((cfg0.win 5).blk t).view.set ↔ ∀ a : Fin 3, win0_5.index t a * S8x64x256.size a ≤ (i a).val
      ∧ (i a).val < win0_5.index t a * S8x64x256.size a + S8x64x256.size a := by
  show i ∈ ((View.whole main_v3_0).slice (win0_5.rect t)).set ↔ _
  rw [View.set_slice_whole, Rect.mem_set_unit]
  exact Iff.rfl

theorem mem_blk6 (t : Fin cfg0.N) (i : S64x64x2048.Idx) :
    i ∈ ((cfg0.win 6).blk t).view.set ↔ ∀ a : Fin 3, win0_6.index t a * S8x64x2048.size a ≤ (i a).val
      ∧ (i a).val < win0_6.index t a * S8x64x2048.size a + S8x64x2048.size a := by
  show i ∈ ((View.whole main_v3_1).slice (win0_6.rect t)).set ↔ _
  rw [View.set_slice_whole, Rect.mem_set_unit]
  exact Iff.rfl

/-- Every entry of the pooled output is in the block of the point over its batch row. -/
theorem cover5 (i : S64x64x256.Idx) : ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 256 := (i 2).isLt
  have hN : cfg0.N = 8 := N_0
  refine ⟨⟨(i 0).val / 8, by rw [hN]; omega⟩, flush0_5 _, ?_⟩
  obtain ⟨-, -, -, -, -, -, -, -, -, -, -, -, e0, e1, e2, -⟩ := idx_facts ⟨(i 0).val / 8, by rw [hN]; omega⟩
  rw [mem_blk5]
  intro a
  match a with
  | ⟨0, _⟩ => show win0_5.index _ (0 : Fin 3) * 8 ≤ (i 0).val ∧ (i 0).val < win0_5.index _ (0 : Fin 3) * 8 + 8; rw [e0]; show (i 0).val / 8 * 8 ≤ (i 0).val ∧ (i 0).val < (i 0).val / 8 * 8 + 8; omega
  | ⟨1, _⟩ => show win0_5.index _ (1 : Fin 3) * 64 ≤ (i 1).val ∧ (i 1).val < win0_5.index _ (1 : Fin 3) * 64 + 64; rw [e1]; omega
  | ⟨2, _⟩ => show win0_5.index _ (2 : Fin 3) * 256 ≤ (i 2).val ∧ (i 2).val < win0_5.index _ (2 : Fin 3) * 256 + 256; rw [e2]; omega

/-- Every entry of the attention scores is in the block of the point over its batch row. -/
theorem cover6 (i : S64x64x2048.Idx) : ∃ t : Fin cfg0.N, (cfg0.win 6).flush t = true ∧ i ∈ ((cfg0.win 6).blk t).view.set := by
  have hi0 : (i 0).val < 64 := (i 0).isLt
  have hi1 : (i 1).val < 64 := (i 1).isLt
  have hi2 : (i 2).val < 2048 := (i 2).isLt
  have hN : cfg0.N = 8 := N_0
  refine ⟨⟨(i 0).val / 8, by rw [hN]; omega⟩, flush0_6 _, ?_⟩
  obtain ⟨-, -, -, -, -, -, -, -, -, -, -, -, -, -, -, e0, e1, e2, -⟩ := idx_facts ⟨(i 0).val / 8, by rw [hN]; omega⟩
  rw [mem_blk6]
  intro a
  match a with
  | ⟨0, _⟩ => show win0_6.index _ (0 : Fin 3) * 8 ≤ (i 0).val ∧ (i 0).val < win0_6.index _ (0 : Fin 3) * 8 + 8; rw [e0]; show (i 0).val / 8 * 8 ≤ (i 0).val ∧ (i 0).val < (i 0).val / 8 * 8 + 8; omega
  | ⟨1, _⟩ => show win0_6.index _ (1 : Fin 3) * 64 ≤ (i 1).val ∧ (i 1).val < win0_6.index _ (1 : Fin 3) * 64 + 64; rw [e1]; omega
  | ⟨2, _⟩ => show win0_6.index _ (2 : Fin 3) * 2048 ≤ (i 2).val ∧ (i 2).val < win0_6.index _ (2 : Fin 3) * 2048 + 2048; rw [e2]; omega

/-- The pooled-output array after the run. -/
theorem final5 (c : Dev nD) (hx : ∀ i, IsReal (aX m c i)) (hu : ∀ i, IsReal (aU m c i))
    (hm : ∀ i, ∃ r : ℝ, 0 ≤ r ∧ aM m c i = (r : EReal)) :
    (dats m 0 c).arrAt 5 cfg0.N = KOut (aX m c) (aM m c) (aW m c) (aB m c) (aU m c) :=
  (dats m 0 c).arrAt_eq_of_cover 5 (KOut (aX m c) (aM m c) (aW m c) (aB m c) (aU m c)) (fun t _ => flushed5_eq c hx hu hm t) cover5

/-- The attention-scores array after the run. -/
theorem final6 (c : Dev nD) (hu : ∀ i, IsReal (aU m c i)) :
    (dats m 0 c).arrAt 6 cfg0.N = KAttn (aX m c) (aM m c) (aW m c) (aB m c) (aU m c) :=
  (dats m 0 c).arrAt_eq_of_cover 6 (KAttn (aX m c) (aM m c) (aW m c) (aB m c) (aU m c)) (fun t _ => flushed6_eq c hu t) cover6

end Cert.KernelIdeal.ArrayValue

end
-- ==== Proof.KernelRun.lean ====
/-
  The kernel's run with both results named as the specification's arrays of the arguments.

  Before the region the host turns the mask's bits into the reals 0 and 1 and inserts a unit middle axis, and lays the bias
  out as a one-row matrix; everything else the region stages is an argument as launched. Read at an index, the staged
  mask at (b, 0, t) is bit (b, t) as a real — nonnegative, as the three-pass law wants — and the staged bias at (0, g) is
  the bias at g. So the two arrays the run leaves, functions of the staged arrays, are the specification's pooled output
  and attention scores of the five arguments, whenever the input and the class vectors are real-valued.
-/
import proofs.«426240_j58334245814317_3_alg».proof.Proof.ArrayValue

noncomputable section

namespace Cert.KernelIdeal.KernelRun

open Cert.KernelIdeal Cert.KernelIdeal.Gen Cert.KernelIdeal.ArrayValue Cert.AttnSpec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments, by their literal types -/

abbrev gX (c : Dev nD) : Vec Ideal S64x2048x256 .f32 := m ((c : Thread nD τ).loc main_arg0)
abbrev gW (c : Dev nD) : Vec Ideal S256x256 .f32 := m ((c : Thread nD τ).loc main_arg1)
abbrev gB (c : Dev nD) : Vec Ideal S256 .f32 := m ((c : Thread nD τ).loc main_arg2)
abbrev gU (c : Dev nD) : Vec Ideal S64x256 .f32 := m ((c : Thread nD τ).loc main_arg3)
abbrev gK (c : Dev nD) : S64x2048.Idx → BitVec 1 := m ((c : Thread nD τ).loc main_arg4)

/-! ## What the host operations before the region leave -/

/-- The staged mask: the bits as reals, a unit middle axis inserted. -/
theorem aM_eq (c : Dev nD) :
    aM m c = broadcastInDim S64x1x2048 ![0, 2] bcast_S64x2048_S64x1x2048_0_2 (uitofp (F := Ideal) .f32 (gK m c)) := by
  dsimp only [aM, V, hostOps0]; after_results

/-- The staged bias: the bias as a one-row matrix. -/
theorem aB_eq (c : Dev nD) : aB m c = broadcastInDim S1x256 ![1] bcast_S256_S1x256_1 (gB m c) := by
  dsimp only [aB, V, hostOps0]; after_results

/-- The staged mask at (b, z, t) is bit (b, t) read as a real. -/
theorem aM_apply (c : Dev nD) (b : Fin 64) (z : Fin 1) (t : Fin 2048) :
    aM m c (ix3 b z t) = (((gK m c (ix2 b t)).toNat : ℝ) : EReal) := by
  rw [aM_eq]
  exact broadcastInDim_apply _ bcast_S64x2048_S64x1x2048_0_2 (uitofp (F := Ideal) .f32 (gK m c)) (ix3 b z t) (ix2 b t)
    (fun a => match a with
      | ⟨0, _⟩ => by show b.val = if (64 : Nat) = 1 then 0 else b.val; rw [if_neg (by decide)]
      | ⟨1, _⟩ => by show t.val = if (2048 : Nat) = 1 then 0 else t.val; rw [if_neg (by decide)])

/-- The staged bias at (z, g) is the bias at g. -/
theorem aB_apply (c : Dev nD) (z : Fin 1) (g : Fin 256) : aB m c (ix2 z g) = gB m c (ix1 g) := by
  rw [aB_eq]
  exact broadcastInDim_apply _ bcast_S256_S1x256_1 (gB m c) (ix2 z g) (ix1 g)
    (fun a => match a with
      | ⟨0, _⟩ => by show g.val = if (256 : Nat) = 1 then 0 else g.val; rw [if_neg (by decide)])

/-- The staged mask is a nonnegative real at every entry. -/
theorem aM_real (c : Dev nD) (i : S64x1x2048.Idx) : ∃ r : ℝ, 0 ≤ r ∧ aM m c i = (r : EReal) := by
  obtain ⟨b, z, t, rfl⟩ : ∃ (b : Fin 64) (z : Fin 1) (t : Fin 2048), i = ix3 b z t := ⟨i 0, i 1, i 2, eq_ix3 i⟩
  rw [aM_apply]
  exact mask_real _

theorem aX_eq (c : Dev nD) : aX m c = gX m c := V_main_arg0 m c
theorem aW_eq (c : Dev nD) : aW m c = gW m c := V_main_arg1 m c
theorem aU_eq (c : Dev nD) : aU m c = gU m c := V_main_arg3 m c

/-! ## The kernel's two arrays are the specification's -/

theorem KOut_eq (c : Dev nD) :
    KOut (aX m c) (aM m c) (aW m c) (aB m c) (aU m c) = outArr (gX m c) (gW m c) (gB m c) (gU m c) (gK m c) := by
  funext i
  obtain ⟨b, cc, f, rfl⟩ : ∃ (b : Fin 64) (cc : Fin 64) (f : Fin 256), i = ix3 b cc f := ⟨i 0, i 1, i 2, eq_ix3 i⟩
  rw [aX_eq, aW_eq, aU_eq]
  show outv (fun t f => gX m c (ix3 b t f)) (fun f g => gW m c (ix2 f g)) (fun g => aB m c (ix2 (0 : Fin 1) g))
      (fun c' f => gU m c (ix2 c' f)) (fun t => aM m c (ix3 b (0 : Fin 1) t)) epsv cc f
    = outv (fun t f => gX m c (ix3 b t f)) (fun f g => gW m c (ix2 f g)) (fun g => gB m c (ix1 g))
      (fun c' f => gU m c (ix2 c' f)) (fun t => (((gK m c (ix2 b t)).toNat : ℝ) : EReal)) epsv cc f
  have eB : (fun g => aB m c (ix2 (0 : Fin 1) g)) = fun g => gB m c (ix1 g) := funext fun g => aB_apply m c 0 g
  have eM : (fun t => aM m c (ix3 b (0 : Fin 1) t)) = fun t => (((gK m c (ix2 b t)).toNat : ℝ) : EReal) :=
    funext fun t => aM_apply m c b 0 t
  rw [eB, eM]

theorem KAttn_eq (c : Dev nD) :
    KAttn (aX m c) (aM m c) (aW m c) (aB m c) (aU m c) = attnArr (gX m c) (gW m c) (gB m c) (gU m c) (gK m c) := by
  funext i
  obtain ⟨b, cc, t, rfl⟩ : ∃ (b : Fin 64) (cc : Fin 64) (t : Fin 2048), i = ix3 b cc t := ⟨i 0, i 1, i 2, eq_ix3 i⟩
  rw [aX_eq, aW_eq, aU_eq]
  show attn (fun t f => gX m c (ix3 b t f)) (fun f g => gW m c (ix2 f g)) (fun g => aB m c (ix2 (0 : Fin 1) g))
      (fun c' f => gU m c (ix2 c' f)) (fun t => aM m c (ix3 b (0 : Fin 1) t)) epsv t cc
    = attn (fun t f => gX m c (ix3 b t f)) (fun f g => gW m c (ix2 f g)) (fun g => gB m c (ix1 g))
      (fun c' f => gU m c (ix2 c' f)) (fun t => (((gK m c (ix2 b t)).toNat : ℝ) : EReal)) epsv t cc
  have eB : (fun g => aB m c (ix2 (0 : Fin 1) g)) = fun g => gB m c (ix1 g) := funext fun g => aB_apply m c 0 g
  have eM : (fun t => aM m c (ix3 b (0 : Fin 1) t)) = fun t => (((gK m c (ix2 b t)).toNat : ℝ) : EReal) :=
    funext fun t => aM_apply m c b 0 t
  rw [eB, eM]

/-! ## The run -/

variable {m}

/-- Every weakly fair execution of the kernel's program, from a memory whose input and class vectors are real-valued,
    ends with the first result the specification's pooled output of the arguments, the second its attention scores, and
    the arguments as launched. -/
theorem run (hx : ∀ c i, IsReal (gX m c i)) (hu : ∀ c i, IsReal (gU m c i)) :
    θ_run defs (onTc (τ := τ) (main (F := Ideal))) ⟨m, fun _ => 0, ρ⟩ fun r => ∀ c : Dev nD,
      r.2.mem ((c : Thread nD τ).loc main_v3_0) = outArr (gX m c) (gW m c) (gB m c) (gU m c) (gK m c)
      ∧ r.2.mem ((c : Thread nD τ).loc main_v3_1) = attnArr (gX m c) (gW m c) (gB m c) (gU m c) (gK m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  have hx' : ∀ c i, IsReal (aX m c i) := fun c i => by rw [aX_eq]; exact hx c i
  have hu' : ∀ c i, IsReal (aU m c i) := fun c i => by rw [aU_eq]; exact hu c i
  exact (θ_run defs _ _).mono (fun r h c =>
      ⟨(h c).1.trans ((final5 c (hx' c) (hu' c) (aM_real m c)).trans (KOut_eq m c)),
       (h c).2.1.trans ((final6 c (hu' c)).trans (KAttn_eq m c)),
       (h c).2.2⟩)
    (Cert.KernelIdeal.Value.run_blocks m ρ)

end Cert.KernelIdeal.KernelRun

end
-- ==== Proof.lean ====
/-
  Attention pooling with masked, regularised normalisation: the kernel against its reference, over the extended reals.

  Both programs compute, for every batch row, hid = tanh (x W + b), logit = hid uᵀ, wgt = exp (logit) · mask,
  attn = wgt / (Σ_t wgt + 1e-7) and out = Σ_t attn · x, and return out (batch × class × feature) and attn (batch × class ×
  position). The reference does so in one piece over the whole batch and transposes attn at the end. The kernel takes
  eight batch rows per grid point, works in the class × position layout throughout, and evaluates the logits and the
  pooled output in three passes, p·q + p·(q − q') + (p − p')·q with p', q' the operands rounded to a shorter format. Over
  the extended reals the roundings are the identity, so the corrections are p − p and q − q, which are zero exactly at real
  numbers. That is where the precondition is used: it makes the input and the class vectors real-valued
  (`Cert.Finite`), which with tanh real everywhere, the mask a real 0 or 1 and the regulariser a positive real makes every
  corrected operand real (`Cert.AttnSpec`).
  The modules: `Spec` states the mathematics and the law; `Rows`, `RowOps`, `RowValue` read one row of the kernel's body at an
  entry; `BlockValue` and `ArrayValue` go from the eight rows of a block to the two result arrays; `KernelRun` reads the
  arrays the host prepares and re-posts the kernel's run; `RefValue` reads the reference; this module assembles the claims.
-/
import proofs.«426240_j58334245814317_3_alg».proof.Defs
import proofs.«426240_j58334245814317_3_alg».proof.Proof.Gen.Kernel
import proofs.«426240_j58334245814317_3_alg».proof.Proof.Gen.Kernel.Skeleton
import proofs.«426240_j58334245814317_3_alg».proof.Proof.Gen.Kernel.Launch
import proofs.«426240_j58334245814317_3_alg».proof.Proof.Gen.Kernel.Points
import proofs.«426240_j58334245814317_3_alg».proof.Proof.Gen.Kernel.Frame
import proofs.«426240_j58334245814317_3_alg».proof.Proof.Gen.KernelIdeal
import proofs.«426240_j58334245814317_3_alg».proof.Proof.Gen.KernelIdeal.Skeleton
import proofs.«426240_j58334245814317_3_alg».proof.Proof.Gen.KernelIdeal.Launch
import proofs.«426240_j58334245814317_3_alg».proof.Proof.Gen.KernelIdeal.Points
import proofs.«426240_j58334245814317_3_alg».proof.Proof.Gen.KernelIdeal.Frame
import proofs.«426240_j58334245814317_3_alg».proof.Proof.Gen.ReferenceIdeal
import proofs.«426240_j58334245814317_3_alg».proof.Proof.Gen.Pre_finite_inputs
import proofs.«426240_j58334245814317_3_alg».proof.Proof.Gen.KernelIdeal.Value
import proofs.«426240_j58334245814317_3_alg».proof.Proof.Gen.ReferenceIdeal.Run
import proofs.«426240_j58334245814317_3_alg».proof.Proof.Gen.ReferenceIdeal.Read
import proofs.«426240_j58334245814317_3_alg».proof.Proof.Finite
import proofs.«426240_j58334245814317_3_alg».proof.Proof.RefValue
import proofs.«426240_j58334245814317_3_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_k : Cert.frame_Kernel := fun m ρ _ => Cert.Kernel.Gen.frame m ρ

/-- The idealized kernel runs and leaves its arguments. -/
theorem frame_ki : Cert.frame_KernelIdeal := fun m ρ _ => Cert.KernelIdeal.Gen.frame m ρ

/-- The idealized reference runs and leaves its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Every rewrite of the idealization is a rounding to a shorter format and back replaced by the value: the identity
    over the extended reals, the rounding at the word level. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

/-- From memories that agree on the arguments both idealized programs end with the specification's pooled output and
    attention scores of those arguments. -/
theorem algebraic : Cert.algebraic_KernelIdeal_ReferenceIdeal := by
  intro m ρ m' ρ' hpre hagree
  have hreal := fun c => Cert.Finite.real_of_fn _ _ _ _ _ (hpre c)
  refine ⟨fun c => Cert.AttnSpec.outArr (Cert.KernelIdeal.KernelRun.gX m c) (Cert.KernelIdeal.KernelRun.gW m c)
      (Cert.KernelIdeal.KernelRun.gB m c) (Cert.KernelIdeal.KernelRun.gU m c) (Cert.KernelIdeal.KernelRun.gK m c),
    fun c => Cert.AttnSpec.attnArr (Cert.KernelIdeal.KernelRun.gX m c) (Cert.KernelIdeal.KernelRun.gW m c)
      (Cert.KernelIdeal.KernelRun.gB m c) (Cert.KernelIdeal.KernelRun.gU m c) (Cert.KernelIdeal.KernelRun.gK m c),
    Cert.KernelIdeal.KernelRun.run ρ (fun c i => (hreal c).1 i) (fun c i => (hreal c).2 i), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v17_eq, Cert.ReferenceIdeal.RefValue.out_eq,
      (hagree c).1, (hagree c).2.1, (hagree c).2.2.1, (hagree c).2.2.2.1, (hagree c).2.2.2.2]
  · rw [(h c).2.1, Cert.ReferenceIdeal.Read.val_main_v18_eq, Cert.ReferenceIdeal.RefValue.attn_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
